-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S64x768 : Shape := ⟨2, ![64, 768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S64x768 : S_.BroadcastsInDim S64x768 (![] : Fin 0 → Fin S64x768.rank)
  reducesTo_S64x768_S_d0_1 : S64x768.ReducesTo [0, 1] S_

variable [Facts]

def fn_part1 {F : FTy → Type} [FloatOps F] (main_v13 : IVec S_ 1) (main_v16 : IVec S64x768 1) : IVec S_ 1 :=
  let main_c_5 : IVec S_ 1 := constantI S_ 1 1#1
  let main_v17 : IVec S_ 1 := (fun x v => Host.reduce IntOp.andi x v reducesTo_S64x768_S_d0_1 h_S_) main_v16 main_c_5
  let main_v18 : IVec S_ 1 := andi main_v13 main_v17
  main_v18

def fn {F : FTy → Type} [FloatOps F] (main_arg0 : FVec F S4x4096x768 .f32) (main_arg1 : FVec F S64x768 .f32) (main_arg2 : FVec F S64x768 .f32) (main_arg3 : FVec F S64x768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S64x768 .f32 := Host.absf main_arg1
  let main_cst_0 : FVec F S_ .f32 := constant S_ .f32 0x7F800000#32
  let main_v5 : FVec F S64x768 .f32 := broadcastInDim S64x768 ![] bcast_S_S64x768 main_cst_0
  let main_v6 : IVec S64x768 1 := cmpf .olt main_v4 main_v5
  let main_c_1 : IVec S_ 1 := constantI S_ 1 1#1
  let main_v7 : IVec S_ 1 := (fun x v => Host.reduce IntOp.andi x v reducesTo_S64x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64x768 .f32 := Host.absf main_arg3
  let main_cst_4 : FVec F S_ .f32 := constant S_ .f32 0x7F800000#32
  let main_v15 : FVec F S64x768 .f32 := broadcastInDim S64x768 ![] bcast_S_S64x768 main_cst_4
  let main_v16 : IVec S64x768 1 := cmpf .olt main_v14 main_v15
  fn_part1 (F := F) main_v13 main_v16
-- ==== Kernel.lean ====
abbrev S4x4096x768 : Shape := ⟨3, ![4, 4096, 768]⟩
abbrev S64x768 : Shape := ⟨2, ![64, 768]⟩
abbrev S768x64 : Shape := ⟨2, ![768, 64]⟩
abbrev S16384x768 : Shape := ⟨2, ![16384, 768]⟩
abbrev S16384x64 : Shape := ⟨2, ![16384, 64]⟩
abbrev S1024x768 : Shape := ⟨2, ![1024, 768]⟩
abbrev S1024x64 : Shape := ⟨2, ![1024, 64]⟩
abbrev S4x4096x64 : Shape := ⟨3, ![4, 4096, 64]⟩
abbrev S1x1024x64 : Shape := ⟨3, ![1, 1024, 64]⟩
abbrev S64x1024 : Shape := ⟨2, ![64, 1024]⟩
abbrev S1024x1024 : Shape := ⟨2, ![1024, 1024]⟩

abbrev nBuf : Space → Nat
  | .hbm => 18
  | .vmem => 20
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S768x64, .f32⟩
  | .hbm, ⟨5, _⟩ => ⟨S768x64, .bf16⟩
  | .hbm, ⟨6, _⟩ => ⟨S768x64, .f32⟩
  | .hbm, ⟨7, _⟩ => ⟨S768x64, .bf16⟩
  | .hbm, ⟨8, _⟩ => ⟨S768x64, .f32⟩
  | .hbm, ⟨9, _⟩ => ⟨S768x64, .bf16⟩
  | .hbm, ⟨10, _⟩ => ⟨S16384x768, .f32⟩
  | .hbm, ⟨11, _⟩ => ⟨S16384x64, .bf16⟩
  | .hbm, ⟨12, _⟩ => ⟨S16384x64, .bf16⟩
  | .hbm, ⟨13, _⟩ => ⟨S16384x64, .bf16⟩
  | .hbm, ⟨14, _⟩ => ⟨S4x4096x64, .bf16⟩
  | .hbm, ⟨15, _⟩ => ⟨S4x4096x64, .bf16⟩
  | .hbm, ⟨16, _⟩ => ⟨S4x4096x64, .bf16⟩
  | .hbm, ⟨17, _⟩ => ⟨S4x4096x64, .f32⟩
  | .local _ .vmem, ⟨0, _⟩ => ⟨S1024x768, .f32⟩
  | .local _ .vmem, ⟨1, _⟩ => ⟨S1024x768, .f32⟩
  | .local _ .vmem, ⟨2, _⟩ => ⟨S768x64, .bf16⟩
  | .local _ .vmem, ⟨3, _⟩ => ⟨S768x64, .bf16⟩
  | .local _ .vmem, ⟨4, _⟩ => ⟨S768x64, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S1024x64, .bf16⟩
  | .local _ .vmem, ⟨10, _⟩ => ⟨S1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .f32⟩
  | .local _ .vmem, ⟨18, _⟩ => ⟨S1x1024x64, .f32⟩
  | .local _ .vmem, ⟨19, _⟩ => ⟨S1024x64, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_15 : BitVec 32 := 0#32
  let v22 : BitVec 1 := Scalar.cmpi .ne v21 c0_i32_15
  v22

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  transposes_S64x768_S768x64_1_0 : S64x768.Transposes [1, 0] S768x64
  bitsLt_bf16_f32 : FTy.bits .bf16 < FTy.bits .f32
  shapeCasts_S4x4096x768_S16384x768 : S4x4096x768.ShapeCasts S16384x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x64_S768x64_0_0 : ∀ a, (![0, 0] : Fin 2 → Nat) a + S768x64.size a ≤ S768x64.size a
  h_S768x64 : 0 < S768x64.numel
  shapeCasts_S768x64_S768x64 : S768x64.ShapeCasts S768x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  shapeCasts_S16384x64_S4x4096x64 : S16384x64.ShapeCasts S4x4096x64
  shapeCasts_S1024x64_S1024x64 : S1024x64.ShapeCasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  transposes_S1024x64_p1_0_S64x1024 : S1024x64.Transposes [1, 0] S64x1024
  shapeCasts_S1024x64_S1x1024x64 : S1024x64.ShapeCasts S1x1024x64
  dot_S1024x768_S768x64_S1024x64_1_0_0_1_n_n_wf : DotDims.WF S1024x768 S768x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S16384x768.size a
  hwx0_0 : ∀ i : grid0.Coords, EltTy.bits .f32 = 32 ∨ (Rect.block (s := S16384x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x64.size a ≤ S768x64.size a
  hwx0_1 : ∀ i : grid0.Coords, EltTy.bits .bf16 = 32 ∨ (Rect.block (s := S768x64) S768x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x64.size a ≤ S768x64.size a
  hwx0_2 : ∀ i : grid0.Coords, EltTy.bits .bf16 = 32 ∨ (Rect.block (s := S768x64) S768x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x64.size a ≤ S768x64.size a
  hwx0_3 : ∀ i : grid0.Coords, EltTy.bits .bf16 = 32 ∨ (Rect.block (s := S768x64) S768x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .bf16 = 32 ∨ (Rect.block (s := S16384x64) S1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S16384x64.size a
  hwx0_5 : ∀ i : grid0.Coords, EltTy.bits .bf16 = 32 ∨ (Rect.block (s := S16384x64) S1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64.size a ≤ S16384x64.size a
  hwx0_6 : ∀ i : grid0.Coords, EltTy.bits .bf16 = 32 ∨ (Rect.block (s := S16384x64) S1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x4096x64.size a
  hwx1_1 : ∀ i : grid1.Coords, EltTy.bits .bf16 = 32 ∨ (Rect.block (s := S4x4096x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v6) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x768 : Shape := ⟨3, ![4, 4096, 768]⟩
abbrev S64x768 : Shape := ⟨2, ![64, 768]⟩
abbrev S4x4096x64 : Shape := ⟨3, ![4, 4096, 64]⟩
abbrev S4x4096x4096 : Shape := ⟨3, ![4, 4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S64x768, .f32⟩
  | .hbm, ⟨2, _⟩ => ⟨S64x768, .f32⟩
  | .hbm, ⟨3, _⟩ => ⟨S64x768, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S4x4096x64, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  dot_S4x4096x768_S64x768_S4x4096x64_2_1_01_0_n_n_wf : DotDims.WF S4x4096x768 S64x768 S4x4096x64 [2] [1] [0, 1] [0] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x768_S64x768_S4x4096x64_2_1_01_0_n_n : DotDims S4x4096x768 S64x768 S4x4096x64 where
  lhsContracting := [2]
  rhsContracting := [1]
  lhsNonContracting := [0, 1]
  rhsNonContracting := [0]
  lhsBatch := []
  rhsBatch := []
  wf := dot_S4x4096x768_S64x768_S4x4096x64_2_1_01_0_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.Bits.Proj.lean ====
import proofs.«119097_j24275155157741_1_alg».proof.Proof.Gen.Kernel.Launch
import proofs.«119097_j24275155157741_1_alg».proof.Proof.Gen.Kernel.Skeleton
import proofs.«119097_j24275155157741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! # The projection region: three row-block products sharing one left factor

The region walks a one-dimensional grid of 16 points. Seven windows are staged around the body:

* window 0 reads the activations, a 16384×768 array of f32, in row blocks of 1024 rows: point `t` sees rows
  `1024·t … 1024·t + 1023`, a fresh block at every point;
* windows 1, 2, 3 read three 768×64 weight arrays of bf16, each WHOLE: the block index is constant in `t`,
  so the transfer happens at the first point only and the staging buffer keeps the same block afterwards;
* windows 4, 5, 6 write three 16384×64 result arrays of bf16, in row blocks of 1024 rows like window 0.

A BLOCK of window `w` at point `t` is the sub-array of `w`'s array, as the region finds it on entry (`V`),
that the window's index map selects at `t` (`iblk0`). The body reads each input buffer whole, rounds the
activation block to bf16 once, multiplies it by each weight block (accumulating in f32 from zero), rounds each
product to bf16 and stores it whole into the matching output buffer. It also reads each output buffer once
before overwriting it; the value read is dropped, so nothing depends on what the buffer held.

Hence after the body at point `t`:
* each input buffer still holds its block;
* output buffer 4 holds `round (round X · W₁)`, buffer 5 `round (round X · W₂)`, buffer 6 `round (round X · W₃)`,
  where `X` is window 0's block at `t` and `Wₖ` is window `k`'s block — spelt below as the single covering
  piece the one store of each buffer lays down (`out0_4`, `out0_5`, `out0_6`).

Everything is stated for an arbitrary float instance `F` and for arbitrary entry contents `V`. -/

/-! ## The windows' blocks -/

/-- Window `w`'s block at point `t`: what the window's view at `t` reads of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its row block at every point: it is transferred at each point,
    the window is never cut short by the array's end and never idle. Stated for any proof data whose array is
    the entry contents and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight window's staging buffer holds the whole weight array at every point: transferred at the
    first point; later the block index has not moved and the body left the buffer as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight window likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: three whole-buffer rectangles -/

/-- The whole 1024×768 activation buffer: origin (0, 0), extent the buffer's. -/
abbrev rX0 : Rect S1024x768 := Rect.unit (s := S1024x768) ![0, 0] S1024x768.size inb_S1024x768_S1024x768_0_0
/-- The whole 768×64 weight buffer. -/
abbrev rW0 : Rect S768x64 := Rect.unit (s := S768x64) ![0, 0] S768x64.size inb_S768x64_S768x64_0_0
/-- The whole 1024×64 result buffer. -/
abbrev rO0 : Rect S1024x64 := Rect.unit (s := S1024x64) ![0, 0] S1024x64.size inb_S1024x64_S1024x64_0_0

/-! ## What the body leaves in each output buffer -/

/-- Result buffer 4 after the body: one piece over the whole buffer, the rounded product of the rounded
    activation block `x0` and the first weight block `x1`. -/
def out0_4 (x0 : Vec F S1024x768 .f32) (x1 : Vec F S768x64 .bf16) : Vec F S1024x64 .bf16 :=
  View.canon [⟨rO0, k0_pay2 (View.ld x0 rX0) (View.ld x1 rW0)⟩]
/-- Result buffer 5 after the body: the same with the second weight block `x2`. -/
def out0_5 (x0 : Vec F S1024x768 .f32) (x2 : Vec F S768x64 .bf16) : Vec F S1024x64 .bf16 :=
  View.canon [⟨rO0, k0_pay3 (View.ld x0 rX0) (View.ld x2 rW0)⟩]
/-- Result buffer 6 after the body: the same with the third weight block `x3`. -/
def out0_6 (x0 : Vec F S1024x768 .f32) (x3 : Vec F S768x64 .bf16) : Vec F S1024x64 .bf16 :=
  View.canon [⟨rO0, k0_pay4 (View.ld x0 rX0) (View.ld x3 rW0)⟩]

/-- The single whole-buffer piece covers every index of a 1024×64 buffer: its rectangle's cell count is the
    buffer's (checked by evaluation), and one rectangle is trivially non-overlapping. -/
theorem cover0_O (p0 : Vec F S1024x64 .bf16) (y : S1024x64.Idx) :
    ∃ pc ∈ ([⟨rO0, p0⟩] : List (View.Piece (Elt F) S1024x64 .bf16)), y ∈ pc.1.set :=
  View.cover_of_tiled [⟨rO0, p0⟩] S1024x64.size (by rfl) y

/-! ## The body's triple -/

set_option maxHeartbeats 1000000 in
/-- The body on seven whole staging buffers — the four inputs holding `x0 … x3`, the three outputs holding
    anything — runs to a state where the inputs hold what they held and output `k` holds `out0_k` of the inputs.
    Four loads bind the inputs; for each output, a load whose value is dropped and then one store over the whole
    buffer; after a covering write the buffer reads as the canonical contents of that write whatever it held. -/
theorem sound_kernel0 (c : Dev nD) (E : Set ℕ) (i : grid0.Coords) (arg1 : Memref sig .tc .vmem S1024x768 .f32) (harg1 : arg1.IsWhole) (arg2 : Memref sig .tc .vmem S768x64 .bf16) (harg2 : arg2.IsWhole) (arg3 : Memref sig .tc .vmem S768x64 .bf16) (harg3 : arg3.IsWhole) (arg4 : Memref sig .tc .vmem S768x64 .bf16) (harg4 : arg4.IsWhole) (arg5 : Memref sig .tc .vmem S1024x64 .bf16) (harg5 : arg5.IsWhole) (arg6 : Memref sig .tc .vmem S1024x64 .bf16) (harg6 : arg6.IsWhole) (arg7 : Memref sig .tc .vmem S1024x64 .bf16) (harg7 : arg7.IsWhole)
    (x0 : Vec F S1024x768 .f32) (x1 : Vec F S768x64 .bf16) (x2 : Vec F S768x64 .bf16) (x3 : Vec F S768x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0_proj_kernel i arg1 harg1 arg2 harg2 arg3 harg3 arg4 harg4 arg5 harg5 arg6 harg6 arg7 harg7) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The pipeline's proof data -/

/-- The proof data of the region on core `c`: the arrays as the region finds them; after the body at point `t`
    each input buffer at its block and output buffer `k` at `out0_k` of the input blocks there; the invariant
    is the untouched rest of the core; every share full; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the case split of the definition reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debts, and the seven current staging
    buffers, each at what the schedule left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the four input buffers hold their blocks, so the body's triple applies at those
    blocks; the invariant and the core's debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point: the seven windows spelt one by one. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.Bits.AttnRuns.lean ====
import proofs.«119097_j24275155157741_1_alg».proof.Proof.Gen.Kernel.Launch
import proofs.«119097_j24275155157741_1_alg».proof.Proof.Gen.Kernel.Skeleton
import proofs.«119097_j24275155157741_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
  REGION 1 (the attention kernel on its 4 × 4 × 4 grid): what the three control cases of its body share, and the body's
  run in each case.

  A grid point is (b, qi, kj); the last coordinate kj walks the four key/value blocks of one (b, qi) query block, so the
  point's position t has kj = t mod 4. The body keeps a 1024 × 64 accumulator in a scratch buffer across the four
  points of a query block:
    kj = 0      : the accumulator is zeroed, then the block product is added                  (case A)
    kj = 1, 2   : the block product is added to what the point before left                     (case B)
    kj = 3      : the same, and the accumulator is copied into the output window's buffer     (case C)
  The output window is idle (not stored, not written back) at the points of cases A and B.
-/

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, refetched there or not (its block index does not
    move along kj), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "kj = 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "kj = 3" (the last key/value block), as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Case A stores nothing into the output window: idle there, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Case C stores the output window whole: live there. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (which one does not matter). -/
abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## The class invariant, with the accumulator split off -/

/-- The core's scoped buffers that are neither a staging buffer of this region nor its accumulator (the other region's
    staging buffers), each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant hands over the accumulator at some contents, the other scoped buffers, and the generator register. -/
theorem PhiA1_open (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H0, H1, H2, H3, H4, H5, H6, H7, H8, H9, H10, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And takes them back. -/
theorem PhiA1_close (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨HS, ⟨H0, H1, H2, H3, H4, H5, H6, H7, H8, H9, H10⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## The body's run, case by case

  In each case: on whole memrefs — the three inputs at their contents, the output window's buffer and the accumulator as
  the case needs them — the body runs to the continuation holding the inputs as they were and each buffer it stored into
  with its pieces written. The piece lists are what the symbolic run finds. -/

set_option maxHeartbeats 4000000 in
/-- Case A (kj = 0): the accumulator is handed in at anything (it is zeroed first), the output buffer at contents `xi3`
    it hands back untouched. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 : Vec F S1x1024x64 .bf16) (x1 : Vec F S1x1024x64 .bf16) (x2 : Vec F S1x1024x64 .bf16) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨[], ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Case B (kj = 1, 2): the accumulator is handed in at what the point before left (`xs0`), the output buffer at contents
    `xi3` it hands back untouched. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 : Vec F S1x1024x64 .bf16) (x1 : Vec F S1x1024x64 .bf16) (x2 : Vec F S1x1024x64 .bf16) (xs0 : Vec F S1024x64 .f32) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨[], ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Case C (kj = 3): the accumulator is handed in at what the point before left (`xs0`), the output buffer at anything; both
    come back with their pieces written. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 : Vec F S1x1024x64 .bf16) (x1 : Vec F S1x1024x64 .bf16) (x2 : Vec F S1x1024x64 .bf16) (xs0 : Vec F S1024x64 .f32) :
    Σ' (L3 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Bits.Attn.lean ====
import proofs.«119097_j24275155157741_1_alg».proof.Proof.Bits.AttnRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-!
  REGION 1, the frame half: what each case of the body leaves in the accumulator and in the output window's buffer, what
  they hold point by point (a recursion on the position: a point of kj > 0 starts from what the point before left in
  the accumulator), the region's invariant (the accumulator at that content between points), the proof data and the body
  obligation.
-/

/-! ## What each case leaves -/

/-- Case A stores nothing into the output window: a placeholder nothing consults (the window is idle there). -/
def out1_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) : Vec F S1x1024x64 .f32 :=
  VO1_3.read (Elt F) (VO1_3.writes (Elt F) VO1_3.junk (kernelRun1_A c i arg3 harg3 arg4 harg4 arg5 harg5 arg6 harg6 arg7 harg7 hc0 hc1 x0 x1 x2).1)
/-- Case A's stores into the accumulator cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x64.size (by sl_kernel_rfl) y
/-- What case A leaves in the accumulator. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) : Vec F S1024x64 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output window either. -/
def out1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) : Vec F S1x1024x64 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) (y : S1024x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x64.size (by sl_kernel_rfl) y
/-- What case B leaves in the accumulator, over what the point before left (`xs0`). -/
def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) : Vec F S1024x64 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output window covers its block. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) (y : S1x1024x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x64.size (by sl_kernel_rfl) y
/-- What case C leaves in the output window's buffer. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) : Vec F S1x1024x64 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) (y : S1024x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x64.size (by sl_kernel_rfl) y
/-- What case C leaves in the accumulator. -/
def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) : Vec F S1024x64 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-! ## Point by point -/

/-- What the output window's buffer and the accumulator hold after the body at position `n` (a pair): the case the
    position is in (`n mod 4`), run on the point's blocks, the accumulator of a point with kj > 0 starting from what
    position `n - 1` left. No position is both ≡ 0 and ≡ 3 (mod 4). -/
def outsAt1 (c : Dev nD) : (n : ℕ) → n < cfg1.N → Vec F S1x1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with kj = 0. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with kj = 1 or 2: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with kj = 3: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class invariant (the accumulator at anything); afterwards the
    accumulator at what position `n - 1` left in it, the other scoped buffers at anything, the generator register at
    some state. -/
def PhiS (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare ((outsAt1 V c n hn).2) ∗ others1 (F := F) c ∗ (∃ r, prngReg c r)) := rfl

theorem PhiS_pos (c : Dev nD) (n : ℕ) (h : n ≤ cfg1.N) (hz : n ≠ 0) :
    PhiS V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- Region 1's proof data on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position's residue mod 4 says which case the point is
    in; the invariant hands the body the accumulator (at anything at the region's first point, else at what the point
    before left) and takes it back at this point's content; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_open (F := F) c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_B_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's content is forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne]
  iintro ⟨HS0, Hoth, Hg⟩
  iapply (PhiA1_close (F := F) c)
  isplitl [HS0]; · iexists _; iexact HS0
  isplitl [Hoth]; · iexact Hoth
  iexact Hg

end Region1

end Cert.Kernel.Hand

end
-- ==== Proof.Bits.Run.lean ====
import proofs.«119097_j24275155157741_1_alg».proof.Proof.Bits.Proj
import proofs.«119097_j24275155157741_1_alg».proof.Proof.Bits.Attn
import proofs.«119097_j24275155157741_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
  THE RUN of @main: seven host operations (three weight transposes and their format changes, the reshape of x to rows),
  the projection region, three reshapes of its results, the attention region.

  The buffer contents at each of the five boundaries are a fold from the launch memory: a host stretch applies its
  operations; a region leaves its windows' arrays at what its write-backs make of them and every other buffer as entered.
  Every weakly fair execution terminates, nothing faulting, with EVERY unscoped buffer at the last boundary's contents:
  the frame (no item writes an argument) and the result array's value are both read off that.
-/

/-! ## The contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result array ends at what the attention region's write-backs leave. -/
theorem result_at (c : Dev nD) : W4 m ρ c (Proc.devRef .tc main_v11) = (dat1 (V3 m ρ) c).arrAt 3 cfg1.N :=
  W4_arr m ρ c 3

end Cert.Kernel.Hand

end
-- ==== Proof.Ideal.Proj.lean ====
import proofs.«119097_j24275155157741_1_alg».proof.Proof.Gen.KernelIdeal.Launch
import proofs.«119097_j24275155157741_1_alg».proof.Proof.Gen.KernelIdeal.Skeleton
import proofs.«119097_j24275155157741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-! # The projection region: three row-block products sharing one left factor

The region walks a one-dimensional grid of 16 points. Seven windows are staged around the body:

* window 0 reads the activations, a 16384×768 array of f32, in row blocks of 1024 rows: point `t` sees rows
  `1024·t … 1024·t + 1023`, a fresh block at every point;
* windows 1, 2, 3 read three 768×64 weight arrays of bf16, each WHOLE: the block index is constant in `t`,
  so the transfer happens at the first point only and the staging buffer keeps the same block afterwards;
* windows 4, 5, 6 write three 16384×64 result arrays of bf16, in row blocks of 1024 rows like window 0.

A BLOCK of window `w` at point `t` is the sub-array of `w`'s array, as the region finds it on entry (`V`),
that the window's index map selects at `t` (`iblk0`). The body reads each input buffer whole, rounds the
activation block to bf16 once, multiplies it by each weight block (accumulating in f32 from zero), rounds each
product to bf16 and stores it whole into the matching output buffer. It also reads each output buffer once
before overwriting it; the value read is dropped, so nothing depends on what the buffer held.

Hence after the body at point `t`:
* each input buffer still holds its block;
* output buffer 4 holds `round (round X · W₁)`, buffer 5 `round (round X · W₂)`, buffer 6 `round (round X · W₃)`,
  where `X` is window 0's block at `t` and `Wₖ` is window `k`'s block — spelt below as the single covering
  piece the one store of each buffer lays down (`out0_4`, `out0_5`, `out0_6`).

Everything is stated for an arbitrary float instance `F` and for arbitrary entry contents `V`. -/

/-! ## The windows' blocks -/

/-- Window `w`'s block at point `t`: what the window's view at `t` reads of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation window's staging buffer holds its row block at every point: it is transferred at each point,
    the window is never cut short by the array's end and never idle. Stated for any proof data whose array is
    the entry contents and whose body leaves the block where it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The first weight window's staging buffer holds the whole weight array at every point: transferred at the
    first point; later the block index has not moved and the body left the buffer as it was. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The second weight window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The third weight window likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: three whole-buffer rectangles -/

/-- The whole 1024×768 activation buffer: origin (0, 0), extent the buffer's. -/
abbrev rX0 : Rect S1024x768 := Rect.unit (s := S1024x768) ![0, 0] S1024x768.size inb_S1024x768_S1024x768_0_0
/-- The whole 768×64 weight buffer. -/
abbrev rW0 : Rect S768x64 := Rect.unit (s := S768x64) ![0, 0] S768x64.size inb_S768x64_S768x64_0_0
/-- The whole 1024×64 result buffer. -/
abbrev rO0 : Rect S1024x64 := Rect.unit (s := S1024x64) ![0, 0] S1024x64.size inb_S1024x64_S1024x64_0_0

/-! ## What the body leaves in each output buffer -/

/-- Result buffer 4 after the body: one piece over the whole buffer, the rounded product of the rounded
    activation block `x0` and the first weight block `x1`. -/
def out0_4 (x0 : Vec F S1024x768 .f32) (x1 : Vec F S768x64 .bf16) : Vec F S1024x64 .bf16 :=
  View.canon [⟨rO0, k0_pay2 (View.ld x0 rX0) (View.ld x1 rW0)⟩]
/-- Result buffer 5 after the body: the same with the second weight block `x2`. -/
def out0_5 (x0 : Vec F S1024x768 .f32) (x2 : Vec F S768x64 .bf16) : Vec F S1024x64 .bf16 :=
  View.canon [⟨rO0, k0_pay3 (View.ld x0 rX0) (View.ld x2 rW0)⟩]
/-- Result buffer 6 after the body: the same with the third weight block `x3`. -/
def out0_6 (x0 : Vec F S1024x768 .f32) (x3 : Vec F S768x64 .bf16) : Vec F S1024x64 .bf16 :=
  View.canon [⟨rO0, k0_pay4 (View.ld x0 rX0) (View.ld x3 rW0)⟩]

/-- The single whole-buffer piece covers every index of a 1024×64 buffer: its rectangle's cell count is the
    buffer's (checked by evaluation), and one rectangle is trivially non-overlapping. -/
theorem cover0_O (p0 : Vec F S1024x64 .bf16) (y : S1024x64.Idx) :
    ∃ pc ∈ ([⟨rO0, p0⟩] : List (View.Piece (Elt F) S1024x64 .bf16)), y ∈ pc.1.set :=
  View.cover_of_tiled [⟨rO0, p0⟩] S1024x64.size (by rfl) y

/-! ## The body's triple -/

set_option maxHeartbeats 1000000 in
/-- The body on seven whole staging buffers — the four inputs holding `x0 … x3`, the three outputs holding
    anything — runs to a state where the inputs hold what they held and output `k` holds `out0_k` of the inputs.
    Four loads bind the inputs; for each output, a load whose value is dropped and then one store over the whole
    buffer; after a covering write the buffer reads as the canonical contents of that write whatever it held. -/
theorem sound_kernel0 (c : Dev nD) (E : Set ℕ) (i : grid0.Coords) (arg1 : Memref sig .tc .vmem S1024x768 .f32) (harg1 : arg1.IsWhole) (arg2 : Memref sig .tc .vmem S768x64 .bf16) (harg2 : arg2.IsWhole) (arg3 : Memref sig .tc .vmem S768x64 .bf16) (harg3 : arg3.IsWhole) (arg4 : Memref sig .tc .vmem S768x64 .bf16) (harg4 : arg4.IsWhole) (arg5 : Memref sig .tc .vmem S1024x64 .bf16) (harg5 : arg5.IsWhole) (arg6 : Memref sig .tc .vmem S1024x64 .bf16) (harg6 : arg6.IsWhole) (arg7 : Memref sig .tc .vmem S1024x64 .bf16) (harg7 : arg7.IsWhole)
    (x0 : Vec F S1024x768 .f32) (x1 : Vec F S768x64 .bf16) (x2 : Vec F S768x64 .bf16) (x3 : Vec F S768x64 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2) ∗ owns (c : Thread nD τ) arg7 fullShare (out0_6 x0 x3)) -∗ K ⟨⟩))
      ⊢ wp frame (wpE (defs₀ (F := F)) Variants.none c none) E (cc0_proj_kernel i arg1 harg1 arg2 harg2 arg3 harg3 arg4 harg4 arg5 harg5 arg6 harg6 arg7 harg7) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_O _)
  isplitl [H5]
  · iexists _; isplitr
    swap; · iexact H5
    ipureintro
    exact View.read_writes_eq_canon _ _ _ (cover0_O _)
  iexists _; isplitr
  swap; · iexact H6
  ipureintro
  exact View.read_writes_eq_canon _ _ _ (cover0_O _)

/-! ## The pipeline's proof data -/

/-- The proof data of the region on core `c`: the arrays as the region finds them; after the body at point `t`
    each input buffer at its block and output buffer `k` at `out0_k` of the input blocks there; the invariant
    is the untouched rest of the core; every share full; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the entry contents (the definition projected). -/
theorem A_eq0 (c : Dev nD) (w : Fin cfg0.W) : (dat0 V c).A w = V c (Pipeline.arrRef spec0 w) := by
  dsimp only [dat0]

/-- What the body leaves, window by window (the case split of the definition reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, transferred there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's debts, and the seven current staging
    buffers, each at what the schedule left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: the same with each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the four input buffers hold their blocks, so the body's triple applies at those
    blocks; the invariant and the core's debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region's proof data, at every point: the seven windows spelt one by one. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Ideal.AttnRuns.lean ====
import proofs.«119097_j24275155157741_1_alg».proof.Proof.Gen.KernelIdeal.Launch
import proofs.«119097_j24275155157741_1_alg».proof.Proof.Gen.KernelIdeal.Skeleton
import proofs.«119097_j24275155157741_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  REGION 1 (the attention kernel on its 4 × 4 × 4 grid): what the three control cases of its body share, and the body's
  run in each case.

  A grid point is (b, qi, kj); the last coordinate kj walks the four key/value blocks of one (b, qi) query block, so the
  point's position t has kj = t mod 4. The body keeps a 1024 × 64 accumulator in a scratch buffer across the four
  points of a query block:
    kj = 0      : the accumulator is zeroed, then the block product is added                  (case A)
    kj = 1, 2   : the block product is added to what the point before left                     (case B)
    kj = 3      : the same, and the accumulator is copied into the output window's buffer     (case C)
  The output window is idle (not stored, not written back) at the points of cases A and B.
-/

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, refetched there or not (its block index does not
    move along kj), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two branch conditions, decided over the grid -/

/-- "kj = 0", as the body computes it from the grid coordinates. -/
abbrev cond1_0 (i : grid1.Coords) : Prop := (Scalar.cmpi .ne (Scalar.extui (Scalar.cmpi .eq (BitVec.ofNat 32 (i 2).val) 0#32)) 0#32) = 1#1
/-- It holds exactly at the positions ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- "kj = 3" (the last key/value block), as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Case A stores nothing into the output window: idle there, -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- The same at the points of case B. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- Case C stores the output window whole: live there. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (which one does not matter). -/
abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S1024x64 .f32 := Memref.whole cc1_scratch0
abbrev VS1_0 : View sig .tc .vmem S1024x64 .f32 := scM1_0.view

/-! ## The class invariant, with the accumulator split off -/

/-- The core's scoped buffers that are neither a staging buffer of this region nor its accumulator (the other region's
    staging buffers), each whole at some contents: they ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant hands over the accumulator at some contents, the other scoped buffers, and the generator register. -/
theorem PhiA1_open (c : Dev nD) :
    (Pipeline.ΦA spec1 c : sProp 𝕄) ⊢ iprop((∃ d, owns (c : Thread nD τ) scM1_0 fullShare d) ∗ others1 (F := F) c ∗ (∃ r, prngReg c r)) := by
  unfold Pipeline.ΦA others1; rw [scopedRest1_eq]; simp only [scM1_0, owns_whole]
  iintro ⟨⟨H0, H1, H2, H3, H4, H5, H6, H7, H8, H9, H10, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iexact Hg

/-- And takes them back. -/
theorem PhiA1_close (c : Dev nD) :
    iprop((∃ d, owns (c : Thread nD τ) scM1_0 fullShare d) ∗ others1 (F := F) c ∗ (∃ r, prngReg c r)) ⊢ (Pipeline.ΦA spec1 c : sProp 𝕄) := by
  unfold Pipeline.ΦA others1; rw [scopedRest1_eq]; simp only [scM1_0, owns_whole]
  iintro ⟨HS, ⟨H0, H1, H2, H3, H4, H5, H6, H7, H8, H9, H10⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  iexact Hg

/-! ## The body's run, case by case

  In each case: on whole memrefs — the three inputs at their contents, the output window's buffer and the accumulator as
  the case needs them — the body runs to the continuation holding the inputs as they were and each buffer it stored into
  with its pieces written. The piece lists are what the symbolic run finds. -/

set_option maxHeartbeats 4000000 in
/-- Case A (kj = 0): the accumulator is handed in at anything (it is zeroed first), the output buffer at contents `xi3`
    it hands back untouched. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i)
    (x0 : Vec F S1x1024x64 .bf16) (x1 : Vec F S1x1024x64 .bf16) (x2 : Vec F S1x1024x64 .bf16) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨[], ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Case B (kj = 1, 2): the accumulator is handed in at what the point before left (`xs0`), the output buffer at contents
    `xi3` it hands back untouched. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i)
    (x0 : Vec F S1x1024x64 .bf16) (x1 : Vec F S1x1024x64 .bf16) (x2 : Vec F S1x1024x64 .bf16) (xs0 : Vec F S1024x64 .f32) :
    Σ' (L3 : List (View.Piece (Elt F) S1x1024x64 .f32)), { LS0 : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨[], ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- Case C (kj = 3): the accumulator is handed in at what the point before left (`xs0`), the output buffer at anything; both
    come back with their pieces written. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i)
    (x0 : Vec F S1x1024x64 .bf16) (x1 : Vec F S1x1024x64 .bf16) (x2 : Vec F S1x1024x64 .bf16) (xs0 : Vec F S1024x64 .f32) :
    Σ' (L3 : List (View.Piece (Elt F) S1x1024x64 .f32)), { LS0 : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_attn_kernel i arg3 harg3 arg4 harg4 arg5 harg5 arg6 harg6 arg7 harg7) K } := by
  refine ⟨?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.Ideal.Attn.lean ====
import proofs.«119097_j24275155157741_1_alg».proof.Proof.Ideal.AttnRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-!
  REGION 1, the frame half: what each case of the body leaves in the accumulator and in the output window's buffer, what
  they hold point by point (a recursion on the position: a point of kj > 0 starts from what the point before left in
  the accumulator), the region's invariant (the accumulator at that content between points), the proof data and the body
  obligation.
-/

/-! ## What each case leaves -/

/-- Case A stores nothing into the output window: a placeholder nothing consults (the window is idle there). -/
def out1_A_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) : Vec F S1x1024x64 .f32 :=
  VO1_3.read (Elt F) (VO1_3.writes (Elt F) VO1_3.junk (kernelRun1_A c i arg3 harg3 arg4 harg4 arg5 harg5 arg6 harg6 arg7 harg7 hc0 hc1 x0 x1 x2).1)
/-- Case A's stores into the accumulator cover it. -/
theorem scover1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) (y : S1024x64.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x64.size (by sl_kernel_rfl) y
/-- What case A leaves in the accumulator. -/
def sout1_A_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 : Vec F S1x1024x64 .bf16) (x1 : Vec F S1x1024x64 .bf16) (x2 : Vec F S1x1024x64 .bf16) : Vec F S1024x64 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output window either. -/
def out1_B_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) : Vec F S1x1024x64 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) (y : S1024x64.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x64.size (by sl_kernel_rfl) y
/-- What case B leaves in the accumulator, over what the point before left (`xs0`). -/
def sout1_B_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 : Vec F S1x1024x64 .bf16) (x1 : Vec F S1x1024x64 .bf16) (x2 : Vec F S1x1024x64 .bf16) (xs0 : Vec F S1024x64 .f32) : Vec F S1024x64 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output window covers its block. -/
theorem cover1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) (y : S1x1024x64.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x1024x64.size (by sl_kernel_rfl) y
/-- What case C leaves in the output window's buffer. -/
def out1_C_3 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) : Vec F S1x1024x64 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) (y : S1024x64.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x64.size (by sl_kernel_rfl) y
/-- What case C leaves in the accumulator. -/
def sout1_C_0 (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 : Vec F S1x1024x64 .bf16) (x1 : Vec F S1x1024x64 .bf16) (x2 : Vec F S1x1024x64 .bf16) (xs0 : Vec F S1024x64 .f32) : Vec F S1024x64 .f32 :=
  VS1_0.read (Elt F) (VS1_0.writes (Elt F) VS1_0.junk (kernelRun1_C c i arg3 harg3 arg4 harg4 arg5 harg5 arg6 harg6 arg7 harg7 hc0 hc1 x0 x1 x2 xs0).2.1)

section Region1
variable (V : (c : Dev nD) → (b : Ref sig .tc) → Buf (Elt F) ((c : Thread nD τ).loc b))

/-! ## Point by point -/

/-- What the output window's buffer and the accumulator hold after the body at position `n` (a pair): the case the
    position is in (`n mod 4`), run on the point's blocks, the accumulator of a point with kj > 0 starting from what
    position `n - 1` left. No position is both ≡ 0 and ≡ 3 (mod 4). -/
def outsAt1 (c : Dev nD) : (n : ℕ) → n < cfg1.N → Vec F S1x1024x64 .f32 × Vec F S1024x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with kj = 0. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with kj = 1 or 2: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with kj = 3: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the region's entry the class invariant (the accumulator at anything); afterwards the
    accumulator at what position `n - 1` left in it, the other scoped buffers at anything, the generator register at
    some state. -/
def PhiS (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare ((outsAt1 V c n hn).2) ∗ others1 (F := F) c ∗ (∃ r, prngReg c r)) := rfl

theorem PhiS_pos (c : Dev nD) (n : ℕ) (h : n ≤ cfg1.N) (hz : n ≠ 0) :
    PhiS V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- Region 1's proof data on core `c`: the arrays as the region finds them; after the body at point `t` each input's
    buffer at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position's residue mod 4 says which case the point is
    in; the invariant hands the body the accumulator (at anything at the region's first point, else at what the point
    before left) and takes it back at this point's content; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 64 := lt_of_lt_of_eq t.isLt (show cfg1.N = 64 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_open (F := F) c) $$ HΦ
        icases HΦ' with ⟨HS0, Hoth, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_A_0 c _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hoth Hg]
        · isplitl [HS0]
          · unfold owns; iexists _; isplitr
            swap; · iexact HS0
            ipureintro; exact View.read_writes_of_cover _ _ _ _ _ (scover1_C_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨HS0, Hoth, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover1_B_0 c _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the accumulator's content is forgotten. -/
theorem hout1 (c : Dev nD) : (dat1 V c).Φ (Fin.last cfg1.N) ⊢ Pipeline.ΦA spec1 c := by
  have hne : (Fin.last cfg1.N).val ≠ 0 := by rw [Fin.val_last]; have : cfg1.N = 64 := N_1; omega
  rw [show (dat1 V c).Φ (Fin.last cfg1.N) = PhiS V c (Fin.last cfg1.N).val (Nat.le_of_lt_succ (Fin.last cfg1.N).isLt) from rfl, PhiS_pos V c _ _ hne]
  iintro ⟨HS0, Hoth, Hg⟩
  iapply (PhiA1_close (F := F) c)
  isplitl [HS0]; · iexists _; iexact HS0
  isplitl [Hoth]; · iexact Hoth
  iexact Hg

end Region1

end Cert.KernelIdeal.Hand

end
-- ==== Proof.Ideal.Run.lean ====
import proofs.«119097_j24275155157741_1_alg».proof.Proof.Ideal.Proj
import proofs.«119097_j24275155157741_1_alg».proof.Proof.Ideal.Attn
import proofs.«119097_j24275155157741_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-!
  THE RUN of @main: seven host operations (three weight transposes and their format changes, the reshape of x to rows),
  the projection region, three reshapes of its results, the attention region.

  The buffer contents at each of the five boundaries are a fold from the launch memory: a host stretch applies its
  operations; a region leaves its windows' arrays at what its write-backs make of them and every other buffer as entered.
  Every weakly fair execution terminates, nothing faulting, with EVERY unscoped buffer at the last boundary's contents:
  the frame (no item writes an argument) and the result array's value are both read off that.
-/

/-! ## The contents at each boundary -/

/-- Core `c`'s buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the attention region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No item writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The result array ends at what the attention region's write-backs leave. -/
theorem result_at (c : Dev nD) : W4 m ρ c (Proc.devRef .tc main_v11) = (dat1 (V3 m ρ) c).arrAt 3 cfg1.N :=
  W4_arr m ρ c 3

end Cert.KernelIdeal.Hand

end
-- ==== Proof.Spec.lean ====
/-
  The function both programs compute, over the extended reals, written once and over coordinates.
  For x : [4, 4096, 768] and three weight matrices w : [64, 768],
    q, k, v [b, t, d] = Σ_c x[b, t, c] · w[d, c]                       (three projections)
    s [b, l, j]       = (Σ_d q[b, l, d] · k[b, j, d]) · σ              (scaled logits, σ the literal 0x3E000000 = 1/8)
    out [b, l, d]     = Σ_j s[b, l, j] · v[b, j, d]                    (no softmax: linear attention)
  The scale stays the literal's own value on both sides and is never evaluated.
-/
import Idealize.ShloMosaic.PureOps.Ideal
import Idealize.ShloMosaic.Lib.ValueIdx

noncomputable section

namespace Cert.Spec

open Idealize.ShloMosaic Idealize.ShloMosaic.ValueIdx

/-- The scale both programs multiply the logits by: the value of the f32 word `0x3E000000`. -/
def scale : EReal := FloatOps.ofBits (F := Ideal) .f32 0x3E000000#32

/-- One projection at coordinates: row `(b, t)` of `x` against row `d` of `w`, contracted over the 768 features. -/
def projAt (x : (⟨3, ![4, 4096, 768]⟩ : Shape).Idx → EReal) (w : (⟨2, ![64, 768]⟩ : Shape).Idx → EReal)
    (b : Fin 4) (t : Fin 4096) (d : Fin 64) : EReal :=
  ∑ c : Fin 768, x (ix3 b t c) * w (ix2 d c)

/-- The scaled logit of query row `l` against key row `j` in batch `b`. -/
def simAt (q k : Fin 4 → Fin 4096 → Fin 64 → EReal) (b : Fin 4) (l j : Fin 4096) : EReal :=
  (∑ d : Fin 64, q b l d * k b j d) * scale

/-- Linear attention at coordinates: the logits of row `l` against every key row, weighted into the values. -/
def attnAt (q k v : Fin 4 → Fin 4096 → Fin 64 → EReal) (b : Fin 4) (l : Fin 4096) (d : Fin 64) : EReal :=
  ∑ j : Fin 4096, simAt q k b l j * v b j d

/-- The whole function of the four argument arrays, at an index of the result. -/
def G (x : (⟨3, ![4, 4096, 768]⟩ : Shape).Idx → EReal) (wq wk wv : (⟨2, ![64, 768]⟩ : Shape).Idx → EReal) :
    (⟨3, ![4, 4096, 64]⟩ : Shape).Idx → EReal :=
  fun i => attnAt (projAt x wq) (projAt x wk) (projAt x wv)
    ⟨(i 0).val, (i 0).isLt⟩ ⟨(i 1).val, (i 1).isLt⟩ ⟨(i 2).val, (i 2).isLt⟩

/-- The projection as the kernel's first region computes it: `x` flattened to 16384 rows against the TRANSPOSED weight
    matrix (768 × 64), contracted over the 768 features. -/
def rowsProj (x2 : (⟨2, ![16384, 768]⟩ : Shape).Idx → EReal) (wT : (⟨2, ![768, 64]⟩ : Shape).Idx → EReal) :
    (⟨2, ![16384, 64]⟩ : Shape).Idx → EReal :=
  fun i => ∑ c : Fin 768, x2 (ix2 ⟨(i 0).val, (i 0).isLt⟩ c) * wT (ix2 c ⟨(i 1).val, (i 1).isLt⟩)

/-- Linear attention of three [4, 4096, 64] arrays, at an index of the result. -/
def attnOf (q k v : (⟨3, ![4, 4096, 64]⟩ : Shape).Idx → EReal) : (⟨3, ![4, 4096, 64]⟩ : Shape).Idx → EReal :=
  fun i => attnAt (fun b t d => q (ix3 b t d)) (fun b t d => k (ix3 b t d)) (fun b t d => v (ix3 b t d))
    ⟨(i 0).val, (i 0).isLt⟩ ⟨(i 1).val, (i 1).isLt⟩ ⟨(i 2).val, (i 2).isLt⟩

end Cert.Spec

end
-- ==== Proof.ProjValue.lean ====
import proofs.«119097_j24275155157741_1_alg».proof.Proof.Ideal.Proj
import proofs.«119097_j24275155157741_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

/-! # The value of the projection region's three result arrays over the extended reals

Over the extended reals rounding to a narrower format is the identity and a matrix product into a zero
accumulator is a plain finite sum. So the body's payload for each result buffer is, entry `(p, d)`,
`Σ_k X[p, k] · W[k, d]` of the activation block `X` (1024 × 768) and the weight block `W` (768 × 64).

Point `t` of the grid holds rows `1024·t … 1024·t + 1023` of the activations and the whole of each weight
array, and writes rows `1024·t … 1024·t + 1023` of each result array. Entry `(1024·t + p, d)` of a result
array is therefore `Σ_k A[1024·t + p, k] · W[k, d]`, which is the row projection of the specification at that
index; the sixteen row blocks tile the 16384 rows, so every entry is written. None of this depends on what
the arrays held when the region was entered. -/

/-! ## The matrix product's index maps, axis by axis -/

theorem lhs_row (i : S1024x64.Idx) (q : dot_S1024x768_S768x64_S1024x64_1_0_0_1_n_n.contr.Idx) :
    (dot_S1024x768_S768x64_S1024x64_1_0_0_1_n_n.lhsIdx i q 0).val = (i 0).val := by
  unfold DotDims.lhsIdx
  rw [dif_neg (show ¬(0 : Fin S1024x768.rank) ∈ dot_S1024x768_S768x64_S1024x64_1_0_0_1_n_n.lhsBatch by decide), dif_pos (show (0 : Fin S1024x768.rank) ∈ dot_S1024x768_S768x64_S1024x64_1_0_0_1_n_n.lhsNonContracting by decide)]
  rfl
theorem lhs_contr (i : S1024x64.Idx) (q : dot_S1024x768_S768x64_S1024x64_1_0_0_1_n_n.contr.Idx) :
    (dot_S1024x768_S768x64_S1024x64_1_0_0_1_n_n.lhsIdx i q 1).val = (q ⟨0, by decide⟩).val :=
  dot_S1024x768_S768x64_S1024x64_1_0_0_1_n_n.lhsIdx_val_of_single rfl i q
theorem rhs_contr (i : S1024x64.Idx) (q : dot_S1024x768_S768x64_S1024x64_1_0_0_1_n_n.contr.Idx) :
    (dot_S1024x768_S768x64_S1024x64_1_0_0_1_n_n.rhsIdx i q 0).val = (q ⟨0, by decide⟩).val :=
  dot_S1024x768_S768x64_S1024x64_1_0_0_1_n_n.rhsIdx_val_of_single rfl i q
theorem rhs_col (i : S1024x64.Idx) (q : dot_S1024x768_S768x64_S1024x64_1_0_0_1_n_n.contr.Idx) :
    (dot_S1024x768_S768x64_S1024x64_1_0_0_1_n_n.rhsIdx i q 1).val = (i 1).val := by
  unfold DotDims.rhsIdx
  rw [dif_neg (show ¬(1 : Fin S768x64.rank) ∈ dot_S1024x768_S768x64_S1024x64_1_0_0_1_n_n.rhsBatch by decide), dif_pos (show (1 : Fin S768x64.rank) ∈ dot_S1024x768_S768x64_S1024x64_1_0_0_1_n_n.rhsNonContracting by decide)]
  rfl

/-! ## The body's payload at an entry -/

/-- Entry `(p, d)` of the first result buffer's payload over the extended reals: the roundings and the
    whole-shape casts are identities, the product into the zero accumulator is the sum over the 768 features. -/
theorem pay_apply (x0 : Vec Ideal S1024x768 .f32) (x1 : Vec Ideal S768x64 .bf16) (p : Fin 1024) (d : Fin 64) :
    k0_pay2 (F := Ideal) x0 x1 (ix2 p d) = ∑ k : Fin 768, x0 (ix2 p k) * x1 (ix2 k d) := by
  unfold k0_pay2 k0_pay1
  simp only [shapeCast_self]
  show FloatOps.matmul (F := Ideal) (φ₁ := .bf16) (φ₂ := .bf16) dot_S1024x768_S768x64_S1024x64_1_0_0_1_n_n none x0 x1 (constant S1024x64 .f32 0x00000000#32) (ix2 p d) = _
  rw [Ideal.matmul_constant_zero_apply, ← Equiv.sum_comp (contrEquiv1 dot_S1024x768_S768x64_S1024x64_1_0_0_1_n_n 768 rfl rfl).symm]
  refine Finset.sum_congr rfl fun k _ => ?_
  have hk := contrEquiv1_symm_val dot_S1024x768_S768x64_S1024x64_1_0_0_1_n_n 768 rfl rfl k
  have el : dot_S1024x768_S768x64_S1024x64_1_0_0_1_n_n.lhsIdx (ix2 p d) ((contrEquiv1 dot_S1024x768_S768x64_S1024x64_1_0_0_1_n_n 768 rfl rfl).symm k) = ix2 p k := funext fun a => Fin.ext (by
    match a with
    | ⟨0, _⟩ => exact lhs_row _ _
    | ⟨1, _⟩ => exact (lhs_contr _ _).trans hk)
  have er : dot_S1024x768_S768x64_S1024x64_1_0_0_1_n_n.rhsIdx (ix2 p d) ((contrEquiv1 dot_S1024x768_S768x64_S1024x64_1_0_0_1_n_n 768 rfl rfl).symm k) = ix2 k d := funext fun a => Fin.ext (by
    match a with
    | ⟨0, _⟩ => exact (rhs_contr _ _).trans hk
    | ⟨1, _⟩ => exact rhs_col _ _)
  rw [el, er]

/-- The second and third result buffers' payloads are the same term over another weight block. -/
theorem pay3_eq (x0 : Vec Ideal S1024x768 .f32) (x : Vec Ideal S768x64 .bf16) : k0_pay3 (F := Ideal) x0 x = k0_pay2 x0 x := rfl
theorem pay4_eq (x0 : Vec Ideal S1024x768 .f32) (x : Vec Ideal S768x64 .bf16) : k0_pay4 (F := Ideal) x0 x = k0_pay2 x0 x := rfl

/-- Row `p` of row block `r`: if `x0` is rows `1024·r …` of `A` and `x1` is all of `W`, entry `(p, d)` of the payload
    is the row projection of `A` against `W` at `(1024·r + p, d)`. -/
theorem block_rows (A : (⟨2, ![16384, 768]⟩ : Shape).Idx → EReal) (W : (⟨2, ![768, 64]⟩ : Shape).Idx → EReal)
    (x0 : Vec Ideal S1024x768 .f32) (x1 : Vec Ideal S768x64 .bf16) (r : Nat) (hr : r < 16)
    (hx0 : ∀ (p : Fin 1024) (k : Fin 768), x0 (ix2 p k) = A (ix2 ⟨r * 1024 + p.val, by have := p.isLt; omega⟩ k))
    (hx1 : ∀ (k : Fin 768) (d : Fin 64), x1 (ix2 k d) = W (ix2 k d)) (p : Fin 1024) (d : Fin 64) :
    k0_pay2 (F := Ideal) x0 x1 (ix2 p d)
      = Cert.Spec.rowsProj A W (ix2 ⟨r * 1024 + p.val, by have := p.isLt; omega⟩ d) := by
  rw [pay_apply]
  unfold Cert.Spec.rowsProj
  exact Finset.sum_congr rfl fun k _ => by rw [hx0, hx1]

/-! ## From blocks to the arrays -/

variable (V : (c : Dev nD) → (b : Ref sig .tc) → Buf (Elt Ideal) ((c : Thread nD τ).loc b))

/-- The body's whole-buffer rectangles start at the origin. -/
theorem zero_origin : (![0, 0] : Fin 2 → Nat) = fun _ => 0 := funext fun a => by fin_cases a <;> rfl

/-- The index maps at point `t`, decided over the 16 points: the activation window and result window 4 sit on row
    block `t`, column block 0; weight window 1 always on block (0, 0). -/
theorem index_maps4 : ∀ t : Fin cfg0.N, win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- The index maps at point `t`, decided over the 16 points: the activation window and result window 5 sit on row
    block `t`, column block 0; weight window 2 always on block (0, 0). -/
theorem index_maps5 : ∀ t : Fin cfg0.N, win0_0.index t (0 : Fin 2) = t.val ∧ win0_0.index t (1 : Fin 2) = 0
    ∧ win0_2.index t (0 : Fin 2) = 0 ∧ win0_2.index t (1 : Fin 2) = 0
    ∧ win0_5.index t (0 : Fin 2) = t.val ∧ win0_5.index t (1 : Fin 2) = 0 :=
  (by decide +kernel : ∀ t : Fin grid0.N, _)

/-- The index maps at point `t`, decided over the 16 points: the activation window and result window 6 sit on row
    block `t`, column block 0; weight window 3 always on block (0, 0). -/
theorem index_maps6 : ∀ t : Fin cfg0.N, win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-! ### Result array 0 (window 4) -/

/-- What point `t` writes back through window 4 is block `t` of the row projection of the activations against
    weight array 1: the body's product of the two blocks there, read row by row. -/
theorem flushed4_eq (c : Dev nD) (t : Fin cfg0.N) :
    (dat0 (F := Ideal) V c).flushed 4 t
      = ((cfg0.win 4).blk t).view.read (Elt Ideal) (Cert.Spec.rowsProj (V c main_v6) (V c main_v1)) := by
  show (cfg0.win 4).cut (grid0.coords t) ((dat0 V c).after 4 t) = _
  rw [after0_4]
  unfold out0_4
  rw [View.canon_unit_zero zero_origin]
  simp only [View.ld_unit_zero (S := S1024x768) zero_origin, View.ld_unit_zero (S := S768x64) zero_origin]
  obtain ⟨hx0, hx1, hw0, hw1, ho0, ho1⟩ := index_maps4 t
  have ht : t.val < 16 := lt_of_lt_of_eq t.isLt N_0
  funext j
  obtain ⟨p, d, rfl⟩ : ∃ (p : Fin 1024) (d : Fin 64), j = ix2 p d := ⟨j 0, j 1, eq_ix2 j⟩
  refine (block_rows (V c main_v6) (V c main_v1) _ _ t.val ht ?_ ?_ p d).trans ?_
  · intro p k
    show V c main_v6 (((cfg0.win 0).blk t).view.emb (ix2 p k)) = V c main_v6 _
    refine congrArg (V c main_v6) (funext fun a => Fin.ext ?_)
    match a with
    | ⟨0, _⟩ => show win0_0.index t (0 : Fin 2) * 1024 + 1 * p.val = t.val * 1024 + p.val; omega
    | ⟨1, _⟩ => show win0_0.index t (1 : Fin 2) * 768 + 1 * k.val = k.val; omega
  · intro k d
    show V c main_v1 (((cfg0.win 1).blk t).view.emb (ix2 k d)) = V c main_v1 _
    refine congrArg (V c main_v1) (funext fun a => Fin.ext ?_)
    match a with
    | ⟨0, _⟩ => show win0_1.index t (0 : Fin 2) * 768 + 1 * k.val = k.val; omega
    | ⟨1, _⟩ => show win0_1.index t (1 : Fin 2) * 64 + 1 * d.val = d.val; omega
  · show Cert.Spec.rowsProj (V c main_v6) (V c main_v1) _ = Cert.Spec.rowsProj (V c main_v6) (V c main_v1) (((cfg0.win 4).blk t).view.emb (ix2 p d))
    refine congrArg (Cert.Spec.rowsProj (V c main_v6) (V c main_v1)) (funext fun a => Fin.ext ?_)
    match a with
    | ⟨0, _⟩ => show t.val * 1024 + p.val = win0_4.index t (0 : Fin 2) * 1024 + 1 * p.val; omega
    | ⟨1, _⟩ => show d.val = win0_4.index t (1 : Fin 2) * 64 + 1 * d.val; omega

/-- An index of result array 0 lies in point `t`'s block iff each coordinate lies in the block's range on its axis. -/
theorem mem_blk4 (t : Fin cfg0.N) (i : S16384x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v7_0).slice (win0_4.rect t)).set ↔ _
  rw [View.set_slice_whole, Rect.mem_set_unit]
  exact Iff.rfl

/-- Every row of result array 0 is written: row `r` lies in the block of point `r / 1024`, and every point writes back. -/
theorem cover4 (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨hx0, hx1, hw0, hw1, ho0, ho1⟩ := index_maps4 t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 64 ≤ (i 1).val ∧ (i 1).val < win0_4.index t (1 : Fin 2) * 64 + 64; omega

/-- Result array 0 after the region: the row projection of the activations against weight array 1, whatever the
    entry contents were. -/
theorem proj_arr4 (c : Dev nD) :
    (dat0 (F := Ideal) V c).arrAt 4 cfg0.N = Cert.Spec.rowsProj (V c main_v6) (V c main_v1) :=
  (dat0 (F := Ideal) V c).arrAt_eq_of_cover 4 (Cert.Spec.rowsProj (V c main_v6) (V c main_v1))
    (fun t _ => flushed4_eq V c t) (cover4)

/-! ### Result array 1 (window 5) -/

/-- What point `t` writes back through window 5 is block `t` of the row projection of the activations against
    weight array 2: the body's product of the two blocks there, read row by row. -/
theorem flushed5_eq (c : Dev nD) (t : Fin cfg0.N) :
    (dat0 (F := Ideal) V c).flushed 5 t
      = ((cfg0.win 5).blk t).view.read (Elt Ideal) (Cert.Spec.rowsProj (V c main_v6) (V c main_v3)) := by
  show (cfg0.win 5).cut (grid0.coords t) ((dat0 V c).after 5 t) = _
  rw [after0_5]
  unfold out0_5
  rw [View.canon_unit_zero zero_origin]
  simp only [View.ld_unit_zero (S := S1024x768) zero_origin, View.ld_unit_zero (S := S768x64) zero_origin]
  obtain ⟨hx0, hx1, hw0, hw1, ho0, ho1⟩ := index_maps5 t
  have ht : t.val < 16 := lt_of_lt_of_eq t.isLt N_0
  funext j
  obtain ⟨p, d, rfl⟩ : ∃ (p : Fin 1024) (d : Fin 64), j = ix2 p d := ⟨j 0, j 1, eq_ix2 j⟩
  refine (block_rows (V c main_v6) (V c main_v3) _ _ t.val ht ?_ ?_ p d).trans ?_
  · intro p k
    show V c main_v6 (((cfg0.win 0).blk t).view.emb (ix2 p k)) = V c main_v6 _
    refine congrArg (V c main_v6) (funext fun a => Fin.ext ?_)
    match a with
    | ⟨0, _⟩ => show win0_0.index t (0 : Fin 2) * 1024 + 1 * p.val = t.val * 1024 + p.val; omega
    | ⟨1, _⟩ => show win0_0.index t (1 : Fin 2) * 768 + 1 * k.val = k.val; omega
  · intro k d
    show V c main_v3 (((cfg0.win 2).blk t).view.emb (ix2 k d)) = V c main_v3 _
    refine congrArg (V c main_v3) (funext fun a => Fin.ext ?_)
    match a with
    | ⟨0, _⟩ => show win0_2.index t (0 : Fin 2) * 768 + 1 * k.val = k.val; omega
    | ⟨1, _⟩ => show win0_2.index t (1 : Fin 2) * 64 + 1 * d.val = d.val; omega
  · show Cert.Spec.rowsProj (V c main_v6) (V c main_v3) _ = Cert.Spec.rowsProj (V c main_v6) (V c main_v3) (((cfg0.win 5).blk t).view.emb (ix2 p d))
    refine congrArg (Cert.Spec.rowsProj (V c main_v6) (V c main_v3)) (funext fun a => Fin.ext ?_)
    match a with
    | ⟨0, _⟩ => show t.val * 1024 + p.val = win0_5.index t (0 : Fin 2) * 1024 + 1 * p.val; omega
    | ⟨1, _⟩ => show d.val = win0_5.index t (1 : Fin 2) * 64 + 1 * d.val; omega

/-- An index of result array 1 lies in point `t`'s block iff each coordinate lies in the block's range on its axis. -/
theorem mem_blk5 (t : Fin cfg0.N) (i : S16384x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v7_1).slice (win0_5.rect t)).set ↔ _
  rw [View.set_slice_whole, Rect.mem_set_unit]
  exact Iff.rfl

/-- Every row of result array 1 is written: row `r` lies in the block of point `r / 1024`, and every point writes back. -/
theorem cover5 (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨hx0, hx1, hw0, hw1, ho0, ho1⟩ := index_maps5 t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 64 ≤ (i 1).val ∧ (i 1).val < win0_5.index t (1 : Fin 2) * 64 + 64; omega

/-- Result array 1 after the region: the row projection of the activations against weight array 2, whatever the
    entry contents were. -/
theorem proj_arr5 (c : Dev nD) :
    (dat0 (F := Ideal) V c).arrAt 5 cfg0.N = Cert.Spec.rowsProj (V c main_v6) (V c main_v3) :=
  (dat0 (F := Ideal) V c).arrAt_eq_of_cover 5 (Cert.Spec.rowsProj (V c main_v6) (V c main_v3))
    (fun t _ => flushed5_eq V c t) (cover5)

/-! ### Result array 2 (window 6) -/

/-- What point `t` writes back through window 6 is block `t` of the row projection of the activations against
    weight array 3: the body's product of the two blocks there, read row by row. -/
theorem flushed6_eq (c : Dev nD) (t : Fin cfg0.N) :
    (dat0 (F := Ideal) V c).flushed 6 t
      = ((cfg0.win 6).blk t).view.read (Elt Ideal) (Cert.Spec.rowsProj (V c main_v6) (V c main_v5)) := by
  show (cfg0.win 6).cut (grid0.coords t) ((dat0 V c).after 6 t) = _
  rw [after0_6]
  unfold out0_6
  rw [View.canon_unit_zero zero_origin]
  simp only [View.ld_unit_zero (S := S1024x768) zero_origin, View.ld_unit_zero (S := S768x64) zero_origin]
  obtain ⟨hx0, hx1, hw0, hw1, ho0, ho1⟩ := index_maps6 t
  have ht : t.val < 16 := lt_of_lt_of_eq t.isLt N_0
  funext j
  obtain ⟨p, d, rfl⟩ : ∃ (p : Fin 1024) (d : Fin 64), j = ix2 p d := ⟨j 0, j 1, eq_ix2 j⟩
  refine (block_rows (V c main_v6) (V c main_v5) _ _ t.val ht ?_ ?_ p d).trans ?_
  · intro p k
    show V c main_v6 (((cfg0.win 0).blk t).view.emb (ix2 p k)) = V c main_v6 _
    refine congrArg (V c main_v6) (funext fun a => Fin.ext ?_)
    match a with
    | ⟨0, _⟩ => show win0_0.index t (0 : Fin 2) * 1024 + 1 * p.val = t.val * 1024 + p.val; omega
    | ⟨1, _⟩ => show win0_0.index t (1 : Fin 2) * 768 + 1 * k.val = k.val; omega
  · intro k d
    show V c main_v5 (((cfg0.win 3).blk t).view.emb (ix2 k d)) = V c main_v5 _
    refine congrArg (V c main_v5) (funext fun a => Fin.ext ?_)
    match a with
    | ⟨0, _⟩ => show win0_3.index t (0 : Fin 2) * 768 + 1 * k.val = k.val; omega
    | ⟨1, _⟩ => show win0_3.index t (1 : Fin 2) * 64 + 1 * d.val = d.val; omega
  · show Cert.Spec.rowsProj (V c main_v6) (V c main_v5) _ = Cert.Spec.rowsProj (V c main_v6) (V c main_v5) (((cfg0.win 6).blk t).view.emb (ix2 p d))
    refine congrArg (Cert.Spec.rowsProj (V c main_v6) (V c main_v5)) (funext fun a => Fin.ext ?_)
    match a with
    | ⟨0, _⟩ => show t.val * 1024 + p.val = win0_6.index t (0 : Fin 2) * 1024 + 1 * p.val; omega
    | ⟨1, _⟩ => show d.val = win0_6.index t (1 : Fin 2) * 64 + 1 * d.val; omega

/-- An index of result array 2 lies in point `t`'s block iff each coordinate lies in the block's range on its axis. -/
theorem mem_blk6 (t : Fin cfg0.N) (i : S16384x64.Idx) :
    i ∈ ((cfg0.win 6).blk t).view.set ↔ ∀ a : Fin 2, win0_6.index t a * S1024x64.size a ≤ (i a).val ∧ (i a).val < win0_6.index t a * S1024x64.size a + S1024x64.size a := by
  show i ∈ ((View.whole main_v7_2).slice (win0_6.rect t)).set ↔ _
  rw [View.set_slice_whole, Rect.mem_set_unit]
  exact Iff.rfl

/-- Every row of result array 2 is written: row `r` lies in the block of point `r / 1024`, and every point writes back. -/
theorem cover6 (i : S16384x64.Idx) :
    ∃ t : Fin cfg0.N, (cfg0.win 6).flush t = true ∧ i ∈ ((cfg0.win 6).blk t).view.set := by
  have hi0 : (i 0).val < 16384 := (i 0).isLt
  have hi1 : (i 1).val < 64 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨hx0, hx1, hw0, hw1, ho0, ho1⟩ := index_maps6 t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 64 ≤ (i 1).val ∧ (i 1).val < win0_6.index t (1 : Fin 2) * 64 + 64; omega

/-- Result array 2 after the region: the row projection of the activations against weight array 3, whatever the
    entry contents were. -/
theorem proj_arr6 (c : Dev nD) :
    (dat0 (F := Ideal) V c).arrAt 6 cfg0.N = Cert.Spec.rowsProj (V c main_v6) (V c main_v5) :=
  (dat0 (F := Ideal) V c).arrAt_eq_of_cover 6 (Cert.Spec.rowsProj (V c main_v6) (V c main_v5))
    (fun t _ => flushed6_eq V c t) (cover6)

end Cert.KernelIdeal.Val

end
-- ==== Proof.AttnPieces.lean ====
import proofs.«119097_j24275155157741_1_alg».proof.Proof.Ideal.Attn
import proofs.«119097_j24275155157741_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

/-
  The attention kernel's body, read as values.
  In each of its three control cases the body's stores into the accumulator and into the output window's buffer are single
  whole-buffer stores, so what each case leaves is the stored payload of the loaded blocks (for any float values). At the
  extended reals the payloads are read at an index: the update is what the accumulator held plus, over the block's 1024
  key rows, (the query row · the key row over the 64 head coordinates, times the literal scale) times the value row's
  entry; the reset block is zero; the output block is the accumulator with a leading unit axis.
-/
set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

/-! ## What each case of the body leaves, for any float values -/

variable {F : FTy → Type} [FloatOps F]

/-- The zero offsets of a rank-2 rectangle, as a constant function. -/
theorem hz2 : (![0, 0] : Fin 2 → Nat) = fun _ => 0 := funext fun a => by fin_cases a <;> rfl
/-- The zero offsets of a rank-3 rectangle, as a constant function. -/
theorem hz3 : (![0, 0, 0] : Fin 3 → Nat) = fun _ => 0 := funext fun a => by fin_cases a <;> rfl

/-- At a point with kj = 1 or 2 the body leaves in the accumulator the block product added to what it found there. -/
theorem sout_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : ¬cond1_1 i) (x0 x1 x2 : Vec F S1x1024x64 .bf16) (xs0 : Vec F S1024x64 .f32) :
    sout1_B_0 c i arg3 harg3 arg4 harg4 arg5 harg5 arg6 harg6 arg7 harg7 hc0 hc1 x0 x1 x2 xs0 = k1_pay2 x0 x1 x2 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg5.read_unread, harg7.read_unread,
    View.ld_unit_zero (S := S1x1024x64) hz3, View.ld_unit_zero (S := S1024x64) hz2]

/-- At a point with kj = 3 the accumulator is left the same way, -/
theorem sout_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 x1 x2 : Vec F S1x1024x64 .bf16) (xs0 : Vec F S1024x64 .f32) :
    sout1_C_0 c i arg3 harg3 arg4 harg4 arg5 harg5 arg6 harg6 arg7 harg7 hc0 hc1 x0 x1 x2 xs0 = k1_pay2 x0 x1 x2 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S1x1024x64) hz3, View.ld_unit_zero (S := S1024x64) hz2]

/-- and the output window's buffer holds that accumulator, read back, with a leading unit axis put on. -/
theorem out_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : ¬cond1_0 i) (hc1 : cond1_1 i) (x0 x1 x2 : Vec F S1x1024x64 .bf16) (xs0 : Vec F S1024x64 .f32) :
    out1_C_3 c i arg3 harg3 arg4 harg4 arg5 harg5 arg6 harg6 arg7 harg7 hc0 hc1 x0 x1 x2 xs0 = k1_pay3 (k1_pay2 x0 x1 x2 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz3]
  simp only [View.readCov_unit_zero (S := S1024x64) _ hz2, View.readAt_eq_ld, harg3.read_unread, harg4.read_unread, harg5.read_unread, harg7.read_unread,
    View.ld_unit_zero (S := S1x1024x64) hz3, View.ld_unit_zero (S := S1024x64) hz2]

/-- At a point with kj = 0 the accumulator is zeroed first: the body leaves the block product added to the zero block. -/
theorem sout_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1024x64 .f32) (harg7 : arg7.IsWhole) (hc0 : cond1_0 i) (hc1 : ¬cond1_1 i) (x0 x1 x2 : Vec F S1x1024x64 .bf16) :
    sout1_A_0 c i arg3 harg3 arg4 harg4 arg5 harg5 arg6 harg6 arg7 harg7 hc0 hc1 x0 x1 x2 = k1_pay2 x0 x1 x2 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x64) hz2, View.readCov_unit_zero (S := S1024x64) _ hz2]
  simp only [View.readAt_eq_ld, harg3.read_unread, harg4.read_unread, harg5.read_unread,
    View.ld_unit_zero (S := S1x1024x64) hz3]

/-! ## The body's two products, read at an index

  The logits are the query block [1024, 64] times the transposed key block [64, 1024]; the update is the scaled logits
  [1024, 1024] times the value block [1024, 64]. Each is a plain rows-by-columns product: its operand indices at an output
  index and a contraction index are read off the dimension record axis by axis. -/

theorem lhs_logits_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_logits_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_logits_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_logits_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- The logits' product into the zero block, at row `p` and column `j`: the sum over the 64 head coordinates. -/
theorem logits_matmul_apply (a : FVec Ideal S1024x64 .bf16) (b : FVec Ideal S64x1024 .bf16) (p j : Fin 1024) :
    matmul dot_S1024x64_S64x1024_S1024x1024_1_0_0_1_n_n none a b (constant (F := Ideal) S1024x1024 .f32 0x00000000#32) (ix2 p j)
      = ∑ e : Fin 64, a (ix2 p e) * b (ix2 e j) := by
  simp only [matmul]
  rw [Ideal.matmul_constant_zero_apply, ← Equiv.sum_comp (ValueIdx.contrEquiv1 dot_S1024x64_S64x1024_S1024x1024_1_0_0_1_n_n 64 rfl rfl).symm]
  refine Finset.sum_congr rfl fun e _ => ?_
  have he := ValueIdx.contrEquiv1_symm_val dot_S1024x64_S64x1024_S1024x1024_1_0_0_1_n_n 64 rfl rfl e
  have el : dot_S1024x64_S64x1024_S1024x1024_1_0_0_1_n_n.lhsIdx (ix2 p j) ((ValueIdx.contrEquiv1 dot_S1024x64_S64x1024_S1024x1024_1_0_0_1_n_n 64 rfl rfl).symm e) = ix2 p e := funext fun x => Fin.ext (by
    match x with
    | ⟨0, _⟩ => exact lhs_logits_0 _ _
    | ⟨1, _⟩ => exact (lhs_logits_1 _ _).trans he)
  have er : dot_S1024x64_S64x1024_S1024x1024_1_0_0_1_n_n.rhsIdx (ix2 p j) ((ValueIdx.contrEquiv1 dot_S1024x64_S64x1024_S1024x1024_1_0_0_1_n_n 64 rfl rfl).symm e) = ix2 e j := funext fun x => Fin.ext (by
    match x with
    | ⟨0, _⟩ => exact (rhs_logits_0 _ _).trans he
    | ⟨1, _⟩ => exact rhs_logits_1 _ _)
  rw [el, er]

theorem lhs_update_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_update_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_update_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_update_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The update's product into the zero block, at row `p` and column `d`: the sum over the block's 1024 key rows. -/
theorem update_matmul_apply (a : FVec Ideal S1024x1024 .bf16) (b : FVec Ideal S1024x64 .bf16) (p : Fin 1024) (d : Fin 64) :
    matmul dot_S1024x1024_S1024x64_S1024x64_1_0_0_1_n_n none a b (constant (F := Ideal) S1024x64 .f32 0x00000000#32) (ix2 p d)
      = ∑ j : Fin 1024, a (ix2 p j) * b (ix2 j d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun j _ => ?_
  have hj := ValueIdx.contrEquiv1_symm_val dot_S1024x1024_S1024x64_S1024x64_1_0_0_1_n_n 1024 rfl rfl j
  have el : dot_S1024x1024_S1024x64_S1024x64_1_0_0_1_n_n.lhsIdx (ix2 p d) ((ValueIdx.contrEquiv1 dot_S1024x1024_S1024x64_S1024x64_1_0_0_1_n_n 1024 rfl rfl).symm j) = ix2 p j := funext fun x => Fin.ext (by
    match x with
    | ⟨0, _⟩ => exact lhs_update_0 _ _
    | ⟨1, _⟩ => exact (lhs_update_1 _ _).trans hj)
  have er : dot_S1024x1024_S1024x64_S1024x64_1_0_0_1_n_n.rhsIdx (ix2 p d) ((ValueIdx.contrEquiv1 dot_S1024x1024_S1024x64_S1024x64_1_0_0_1_n_n 1024 rfl rfl).symm j) = ix2 j d := funext fun x => Fin.ext (by
    match x with
    | ⟨0, _⟩ => exact (rhs_update_0 _ _).trans hj
    | ⟨1, _⟩ => exact rhs_update_1 _ _)
  rw [el, er]

/-! ## The layout operations of the body, read at an index -/

/-- A block [1, 1024, 64] viewed [1024, 64] reads row `p`, column `e` at `(0, p, e)`. -/
theorem dropUnit_apply (x : FVec Ideal S1x1024x64 .bf16) (p : Fin 1024) (e : Fin 64) :
    shapeCast S1024x64 x shapeCasts_S1x1024x64_S1024x64 (ix2 p e) = x (ix3 (0 : Fin 1) p e) := by
  refine (shapeCast_dropUnit_apply ![1024, 64] x shapeCasts_S1x1024x64_S1024x64 (ix2 p e)).trans ?_
  exact congrArg x (funext fun a => by match a with | ⟨0, _⟩ => rfl | ⟨1, _⟩ => rfl | ⟨2, _⟩ => rfl)

/-- The transposed key block reads `(e, j)` at `(j, e)`. -/
theorem transposed_apply (x : FVec Ideal S1024x64 .bf16) (e : Fin 64) (j : Fin 1024) :
    transpose S64x1024 [1, 0] x transposes_S1024x64_p1_0_S64x1024 (ix2 e j) = x (ix2 j e) :=
  transpose_apply [1, 0] x transposes_S1024x64_p1_0_S64x1024 (ix2 e j) (ix2 j e) (fun b => by
    match b with | ⟨0, _⟩ => rfl | ⟨1, _⟩ => rfl)

/-- An accumulator [1024, 64] stored as a block [1, 1024, 64] reads `(0, p, d)` at `(p, d)`. -/
theorem addUnit_apply (x : FVec Ideal S1024x64 .f32) (p : Fin 1024) (d : Fin 64) :
    shapeCast S1x1024x64 x shapeCasts_S1024x64_S1x1024x64 (ix3 (0 : Fin 1) p d) = x (ix2 p d) := by
  refine (shapeCast_addUnit_apply ![1024, 64] x shapeCasts_S1024x64_S1x1024x64 (ix3 (0 : Fin 1) p d)).trans ?_
  exact congrArg x (funext fun a => by match a with | ⟨0, _⟩ => rfl | ⟨1, _⟩ => rfl)

/-! ## The payloads at an index -/

/-- The zero block reads zero. -/
theorem pay1_apply (i : S1024x64.Idx) : (k1_pay1 (F := Ideal)) i = 0 := by
  unfold k1_pay1
  rw [shapeCast_self]
  exact Ideal.ofBits_zero_f32

/-- The body's update at row `p`, column `d`: what the accumulator held there plus, over the block's 1024 key rows, the scaled
    logit of the query row against the key row times the value row's entry. -/
theorem pay2_apply (q k v : FVec Ideal S1x1024x64 .bf16) (acc : FVec Ideal S1024x64 .f32) (p : Fin 1024) (d : Fin 64) :
    k1_pay2 (F := Ideal) q k v acc (ix2 p d)
      = acc (ix2 p d) + ∑ j : Fin 1024, ((∑ e : Fin 64, q (ix3 (0 : Fin 1) p e) * k (ix3 (0 : Fin 1) j e)) * Cert.Spec.scale)
          * v (ix3 (0 : Fin 1) j d) := by
  unfold k1_pay2
  rw [shapeCast_self]
  refine (addf_apply _ _ (ix2 p d)).trans ?_
  refine congrArg (acc (ix2 p d) + ·) ?_
  refine (update_matmul_apply _ _ p d).trans ?_
  refine Finset.sum_congr rfl fun j _ => ?_
  refine congrArg₂ (· * ·) ?_ (dropUnit_apply v j d)
  refine (truncf_apply (φ := .f32) (ψ := .bf16) _ bitsLt_bf16_f32 (ix2 p j)).trans ?_
  refine (mulf_apply _ _ (ix2 p j)).trans ?_
  refine congrArg₂ (· * ·) ?_ rfl
  refine (logits_matmul_apply _ _ p j).trans ?_
  refine Finset.sum_congr rfl fun e _ => ?_
  exact congrArg₂ (· * ·) (dropUnit_apply q p e) ((transposed_apply _ e j).trans (dropUnit_apply k j e))

/-- The output block reads the accumulator without its leading unit axis. -/
theorem pay3_apply (acc : FVec Ideal S1024x64 .f32) (p : Fin 1024) (d : Fin 64) :
    k1_pay3 (F := Ideal) acc (ix3 (0 : Fin 1) p d) = acc (ix2 p d) := by
  unfold k1_pay3
  exact addUnit_apply acc p d

end Cert.KernelIdeal.Val

end
-- ==== Proof.AttnValue.lean ====
import proofs.«119097_j24275155157741_1_alg».proof.Proof.AttnPieces
import proofs.«119097_j24275155157741_1_alg».proof.Proof.Ideal.Attn
import proofs.«119097_j24275155157741_1_alg».proof.Proof.Spec
import Idealize.ShloMosaic.Lib.Pipeline.Value
import Idealize.ShloMosaic.Lib.ValueIdx
import Idealize.ShloMosaic.Lib.ValueLayout
import Idealize.ShloMosaic.PureOps.Ideal.Laws

/-
  The value of the attention kernel's result array, at the extended reals, for any entry contents.
  Grid position n is (b, qi, kj) = (n / 16, (n / 4) mod 4, n mod 4). The accumulator after position n holds, at row p and
  column d, the shares of the key blocks 0 … kj of row qi · 1024 + p of batch b: zero plus the first block's product at
  kj = 0, one more block's product at each later point. At kj = 3 the output window's block is written with all four
  shares, and the four blocks of 1024 key rows are the 4096 key rows, so the block is the specification's attention at its
  rows. Every row of every batch lies in the block of exactly such a point, which gives the whole array.
-/
set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand

section Value
variable (V : (c : Dev nD) → (b : Ref sig .tc) → Buf (Elt Ideal) ((c : Thread nD τ).loc b))

/-! ## The arrays, their blocks, and where a block's rows sit -/

/-- The query, key and value arrays as the region finds them, -/
abbrev qarr (c : Dev nD) : FVec Ideal S4x4096x64 .bf16 := V c main_v8
abbrev karr (c : Dev nD) : FVec Ideal S4x4096x64 .bf16 := V c main_v9
abbrev varr (c : Dev nD) : FVec Ideal S4x4096x64 .bf16 := V c main_v10
/-- and their blocks at a grid point. -/
abbrev qblk (c : Dev nD) (t : Fin cfg1.N) : FVec Ideal S1x1024x64 .bf16 := iblk1 V c 0 t
abbrev kblk (c : Dev nD) (t : Fin cfg1.N) : FVec Ideal S1x1024x64 .bf16 := iblk1 V c 1 t
abbrev vblk (c : Dev nD) (t : Fin cfg1.N) : FVec Ideal S1x1024x64 .bf16 := iblk1 V c 2 t

/-- The batch of grid position `n` = (b, qi, kj), last coordinate fastest, -/
abbrev bOf (n : ℕ) : Fin 4 := ⟨n / 16 % 4, Nat.mod_lt _ (by decide)⟩
/-- the array row of row `p` of its query block qi, -/
abbrev qrow (n : ℕ) (p : Fin 1024) : Fin 4096 := ⟨n / 4 % 4 * 1024 + p.val, by have := p.isLt; omega⟩
/-- and the array row of row `j` of key block `kj` (read mod 4, so that a grid position serves as its own kj). -/
abbrev krow (kj : ℕ) (j : Fin 1024) : Fin 4096 := ⟨kj % 4 * 1024 + j.val, by have := j.isLt; omega⟩

/-- The printed index maps, decided over the grid: the query and output windows sit at block (b, qi, 0), the key and
    value windows at block (b, kj, 0). -/
theorem idx_q : ∀ t : Fin cfg1.N, win1_0.index t (0 : Fin 3) = t.val / 16 % 4 ∧ win1_0.index t (1 : Fin 3) = t.val / 4 % 4 ∧ win1_0.index t (2 : Fin 3) = 0 :=
  (by decide +kernel : ∀ t : Fin grid1.N, win1_0.index t (0 : Fin 3) = t.val / 16 % 4 ∧ win1_0.index t (1 : Fin 3) = t.val / 4 % 4 ∧ win1_0.index t (2 : Fin 3) = 0)
theorem idx_k : ∀ t : Fin cfg1.N, win1_1.index t (0 : Fin 3) = t.val / 16 % 4 ∧ win1_1.index t (1 : Fin 3) = t.val % 4 ∧ win1_1.index t (2 : Fin 3) = 0 :=
  (by decide +kernel : ∀ t : Fin grid1.N, win1_1.index t (0 : Fin 3) = t.val / 16 % 4 ∧ win1_1.index t (1 : Fin 3) = t.val % 4 ∧ win1_1.index t (2 : Fin 3) = 0)
theorem idx_v : ∀ t : Fin cfg1.N, win1_2.index t (0 : Fin 3) = t.val / 16 % 4 ∧ win1_2.index t (1 : Fin 3) = t.val % 4 ∧ win1_2.index t (2 : Fin 3) = 0 :=
  (by decide +kernel : ∀ t : Fin grid1.N, win1_2.index t (0 : Fin 3) = t.val / 16 % 4 ∧ win1_2.index t (1 : Fin 3) = t.val % 4 ∧ win1_2.index t (2 : Fin 3) = 0)
theorem idx_o : ∀ t : Fin cfg1.N, win1_3.index t (0 : Fin 3) = t.val / 16 % 4 ∧ win1_3.index t (1 : Fin 3) = t.val / 4 % 4 ∧ win1_3.index t (2 : Fin 3) = 0 :=
  (by decide +kernel : ∀ t : Fin grid1.N, win1_3.index t (0 : Fin 3) = t.val / 16 % 4 ∧ win1_3.index t (1 : Fin 3) = t.val / 4 % 4 ∧ win1_3.index t (2 : Fin 3) = 0)

/-- The query block's row `p` is the array's row qi · 1024 + p of batch b. -/
theorem qblk_apply (c : Dev nD) (t : Fin cfg1.N) (p : Fin 1024) (e : Fin 64) :
    qblk V c t (ix3 (0 : Fin 1) p e) = qarr V c (ix3 (bOf t.val) (qrow t.val p) e) := by
  obtain ⟨e0, e1, e2⟩ := idx_q t
  show iblk1 V c 0 t (ix3 (0 : Fin 1) p e) = V c main_v8 (ix3 (bOf t.val) (qrow t.val p) e)
  unfold iblk1
  rw [View.read_apply]
  show V c main_v8 _ = V c main_v8 _
  refine congrArg (V c main_v8) (funext fun a => Fin.ext ?_)
  match a with
  | ⟨0, _⟩ => show win1_0.index t (0 : Fin 3) * 1 + 1 * 0 = t.val / 16 % 4; rw [e0]; omega
  | ⟨1, _⟩ => show win1_0.index t (1 : Fin 3) * 1024 + 1 * p.val = t.val / 4 % 4 * 1024 + p.val; rw [e1]; omega
  | ⟨2, _⟩ => show win1_0.index t (2 : Fin 3) * 64 + 1 * e.val = e.val; rw [e2]; omega

/-- The key block's row `j` is the array's row kj · 1024 + j of batch b. -/
theorem kblk_apply (c : Dev nD) (t : Fin cfg1.N) (j : Fin 1024) (e : Fin 64) :
    kblk V c t (ix3 (0 : Fin 1) j e) = karr V c (ix3 (bOf t.val) (krow t.val j) e) := by
  obtain ⟨e0, e1, e2⟩ := idx_k t
  show iblk1 V c 1 t (ix3 (0 : Fin 1) j e) = V c main_v9 (ix3 (bOf t.val) (krow t.val j) e)
  unfold iblk1
  rw [View.read_apply]
  show V c main_v9 _ = V c main_v9 _
  refine congrArg (V c main_v9) (funext fun a => Fin.ext ?_)
  match a with
  | ⟨0, _⟩ => show win1_1.index t (0 : Fin 3) * 1 + 1 * 0 = t.val / 16 % 4; rw [e0]; omega
  | ⟨1, _⟩ => show win1_1.index t (1 : Fin 3) * 1024 + 1 * j.val = t.val % 4 * 1024 + j.val; rw [e1]; omega
  | ⟨2, _⟩ => show win1_1.index t (2 : Fin 3) * 64 + 1 * e.val = e.val; rw [e2]; omega

/-- The value block's row `j` likewise. -/
theorem vblk_apply (c : Dev nD) (t : Fin cfg1.N) (j : Fin 1024) (d : Fin 64) :
    vblk V c t (ix3 (0 : Fin 1) j d) = varr V c (ix3 (bOf t.val) (krow t.val j) d) := by
  obtain ⟨e0, e1, e2⟩ := idx_v t
  show iblk1 V c 2 t (ix3 (0 : Fin 1) j d) = V c main_v10 (ix3 (bOf t.val) (krow t.val j) d)
  unfold iblk1
  rw [View.read_apply]
  show V c main_v10 _ = V c main_v10 _
  refine congrArg (V c main_v10) (funext fun a => Fin.ext ?_)
  match a with
  | ⟨0, _⟩ => show win1_2.index t (0 : Fin 3) * 1 + 1 * 0 = t.val / 16 % 4; rw [e0]; omega
  | ⟨1, _⟩ => show win1_2.index t (1 : Fin 3) * 1024 + 1 * j.val = t.val % 4 * 1024 + j.val; rw [e1]; omega
  | ⟨2, _⟩ => show win1_2.index t (2 : Fin 3) * 64 + 1 * d.val = d.val; rw [e2]; omega

/-! ## One point's block product, and one key block's share of a result row -/

/-- What grid point `t` adds to the accumulator at row `p`, column `d`: over the block's key rows, the scaled logit of
    the query row against the key row times the value row's entry. -/
def blockProd (c : Dev nD) (t : Fin cfg1.N) (p : Fin 1024) (d : Fin 64) : EReal :=
  ∑ j : Fin 1024, ((∑ e : Fin 64, qblk V c t (ix3 (0 : Fin 1) p e) * kblk V c t (ix3 (0 : Fin 1) j e)) * Cert.Spec.scale)
    * vblk V c t (ix3 (0 : Fin 1) j d)

/-- Key block `kj`'s share of the result at batch `b`, row `l`, column `d`, over the arrays. -/
def blockTerm (c : Dev nD) (b : Fin 4) (l : Fin 4096) (kj : ℕ) (d : Fin 64) : EReal :=
  ∑ j : Fin 1024, ((∑ e : Fin 64, qarr V c (ix3 b l e) * karr V c (ix3 b (krow kj j) e)) * Cert.Spec.scale)
    * varr V c (ix3 b (krow kj j) d)

/-- A key block is named by its number mod 4. -/
theorem blockTerm_mod (c : Dev nD) (b : Fin 4) (l : Fin 4096) (kj : ℕ) (d : Fin 64) :
    blockTerm V c b l (kj % 4) d = blockTerm V c b l kj d := by
  have hk : ∀ j : Fin 1024, krow (kj % 4) j = krow kj j := fun j => Fin.ext (by show kj % 4 % 4 * 1024 + j.val = kj % 4 * 1024 + j.val; omega)
  unfold blockTerm
  simp only [hk]

/-- A point's block product is its key block's share of its query rows. -/
theorem blockProd_eq (c : Dev nD) (n : ℕ) (h : n < cfg1.N) (p : Fin 1024) (d : Fin 64) :
    blockProd V c ⟨n, h⟩ p d = blockTerm V c (bOf n) (qrow n p) n d := by
  unfold blockProd blockTerm
  simp only [qblk_apply, kblk_apply, vblk_apply]

/-! ## The accumulator and the output block, point by point -/

/-- At a point with kj = 0 the accumulator is left at the point's block product. -/
theorem acc_A (c : Dev nD) (t : Fin cfg1.N) (h0 : t.val % 4 = 0) (h1 : ¬t.val % 4 = 3) (p : Fin 1024) (d : Fin 64) :
    (outsAt1 V c t.val t.isLt).2 (ix2 p d) = blockProd V c t p d := by
  rw [outsAt1_A V c t h0 h1]
  dsimp only
  refine (congrFun (sout_A (F := Ideal) c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (qblk V c t) (kblk V c t) (vblk V c t)) (ix2 p d)).trans ?_
  refine (pay2_apply (qblk V c t) (kblk V c t) (vblk V c t) (k1_pay1 (F := Ideal)) p d).trans ?_
  rw [pay1_apply, zero_add]
  rfl

/-- At a point with kj = 1 or 2 the point's block product is added to what the point before left. -/
theorem acc_B (c : Dev nD) (t : Fin cfg1.N) (h0 : ¬t.val % 4 = 0) (h1 : ¬t.val % 4 = 3) (p : Fin 1024) (d : Fin 64) :
    (outsAt1 V c t.val t.isLt).2 (ix2 p d) = (outsAt1 V c (t.val - 1) (Nat.lt_of_le_of_lt (Nat.sub_le _ _) t.isLt)).2 (ix2 p d) + blockProd V c t p d := by
  rw [outsAt1_B V c t h0 h1]
  dsimp only
  refine (congrFun (sout_B (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (qblk V c t) (kblk V c t) (vblk V c t) (outsAt1 V c (t.val - 1) (Nat.lt_of_le_of_lt (Nat.sub_le _ _) t.isLt)).2) (ix2 p d)).trans ?_
  exact pay2_apply (qblk V c t) (kblk V c t) (vblk V c t) (outsAt1 V c (t.val - 1) (Nat.lt_of_le_of_lt (Nat.sub_le _ _) t.isLt)).2 p d

/-- At a point with kj = 3 the output window's block is left at what the point before left plus the point's block product. -/
theorem out_C' (c : Dev nD) (t : Fin cfg1.N) (h0 : ¬t.val % 4 = 0) (h1 : t.val % 4 = 3) (p : Fin 1024) (d : Fin 64) :
    (outsAt1 V c t.val t.isLt).1 (ix3 (0 : Fin 1) p d) = (outsAt1 V c (t.val - 1) (Nat.lt_of_le_of_lt (Nat.sub_le _ _) t.isLt)).2 (ix2 p d) + blockProd V c t p d := by
  rw [outsAt1_C V c t h0 h1]
  dsimp only
  refine (congrFun (out_C (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (qblk V c t) (kblk V c t) (vblk V c t) (outsAt1 V c (t.val - 1) (Nat.lt_of_le_of_lt (Nat.sub_le _ _) t.isLt)).2) (ix3 (0 : Fin 1) p d)).trans ?_
  refine (pay3_apply _ p d).trans ?_
  exact pay2_apply (qblk V c t) (kblk V c t) (vblk V c t) (outsAt1 V c (t.val - 1) (Nat.lt_of_le_of_lt (Nat.sub_le _ _) t.isLt)).2 p d

/-- The accumulator at one position, named two ways. -/
theorem acc_cast (c : Dev nD) (p : Fin 1024) (d : Fin 64) (k n : ℕ) (hk : k < cfg1.N) (hn : n < cfg1.N) (e : k = n) :
    (outsAt1 V c k hk).2 (ix2 p d) = (outsAt1 V c n hn).2 (ix2 p d) := by subst e; rfl

/-- After a point with kj < 3 the accumulator holds the shares of the key blocks 0 … kj of the point's query rows. -/
theorem acc_eq (c : Dev nD) (p : Fin 1024) (d : Fin 64) : ∀ (n : ℕ) (h : n < cfg1.N), ¬n % 4 = 3 →
    (outsAt1 V c n h).2 (ix2 p d) = ∑ kj ∈ Finset.range (n % 4 + 1), blockTerm V c (bOf n) (qrow n p) kj d := by
  intro n
  induction n with
  | zero =>
    intro h h1
    refine (acc_A V c ⟨0, h⟩ rfl h1 p d).trans ?_
    rw [blockProd_eq, show 0 % 4 + 1 = 1 from rfl, Finset.sum_range_one]
  | succ m ih =>
    intro h h1
    by_cases h0 : (m + 1) % 4 = 0
    · refine (acc_A V c ⟨m + 1, h⟩ h0 h1 p d).trans ?_
      rw [blockProd_eq, h0, Finset.sum_range_one, ← blockTerm_mod V c _ _ (m + 1), h0]
    · refine (acc_B V c ⟨m + 1, h⟩ h0 h1 p d).trans ?_
      rw [acc_cast V c p d _ m _ (Nat.lt_of_succ_lt h) (Nat.add_sub_cancel m 1), ih (Nat.lt_of_succ_lt h) (by omega), blockProd_eq]
      have hb : bOf m = bOf (m + 1) := Fin.ext (by show m / 16 % 4 = (m + 1) / 16 % 4; omega)
      have hq : qrow m p = qrow (m + 1) p := Fin.ext (by show m / 4 % 4 * 1024 + p.val = (m + 1) / 4 % 4 * 1024 + p.val; omega)
      rw [hb, hq, ← blockTerm_mod V c _ _ (m + 1), show (m + 1) % 4 = m % 4 + 1 by omega]
      exact (Finset.sum_range_succ (fun kj => blockTerm V c (bOf (m + 1)) (qrow (m + 1) p) kj d) (m % 4 + 1)).symm

/-- After a point with kj = 3 the output window's block holds the shares of all four key blocks. -/
theorem out_eq (c : Dev nD) (p : Fin 1024) (d : Fin 64) (n : ℕ) (h : n < cfg1.N) (h1 : n % 4 = 3) :
    (outsAt1 V c n h).1 (ix3 (0 : Fin 1) p d) = ∑ kj ∈ Finset.range 4, blockTerm V c (bOf n) (qrow n p) kj d := by
  obtain ⟨m, rfl⟩ : ∃ m, n = m + 1 := ⟨n - 1, by omega⟩
  refine (out_C' V c ⟨m + 1, h⟩ (by show ¬(m + 1) % 4 = 0; omega) h1 p d).trans ?_
  rw [acc_cast V c p d _ m _ (Nat.lt_of_succ_lt h) (Nat.add_sub_cancel m 1), acc_eq V c p d m (Nat.lt_of_succ_lt h) (by omega), blockProd_eq]
  have hb : bOf m = bOf (m + 1) := Fin.ext (by show m / 16 % 4 = (m + 1) / 16 % 4; omega)
  have hq : qrow m p = qrow (m + 1) p := Fin.ext (by show m / 4 % 4 * 1024 + p.val = (m + 1) / 4 % 4 * 1024 + p.val; omega)
  rw [hb, hq, show m % 4 + 1 = 3 by omega, ← blockTerm_mod V c _ _ (m + 1), h1]
  exact (Finset.sum_range_succ (fun kj => blockTerm V c (bOf (m + 1)) (qrow (m + 1) p) kj d) 3).symm

end Value

/-! ## The four key blocks are the 4096 key rows -/

/-- Key block and row inside it, as the array's row. -/
def rowEquiv : Fin 4 × Fin 1024 ≃ Fin 4096 where
  toFun x := krow x.1.val x.2
  invFun j := (⟨j.val / 1024, by have := j.isLt; omega⟩, ⟨j.val % 1024, Nat.mod_lt _ (by decide)⟩)
  left_inv x := by
    have h1 := x.1.isLt
    have h2 := x.2.isLt
    refine Prod.ext (Fin.ext ?_) (Fin.ext ?_)
    · show (x.1.val % 4 * 1024 + x.2.val) / 1024 = x.1.val; omega
    · show (x.1.val % 4 * 1024 + x.2.val) % 1024 = x.2.val; omega
  right_inv j := by
    have h := j.isLt
    refine Fin.ext ?_
    show j.val / 1024 % 4 * 1024 + j.val % 1024 = j.val; omega

/-- A sum over the 4096 key rows, block by block. -/
theorem sum_rows (f : Fin 4096 → EReal) :
    ∑ j : Fin 4096, f j = ∑ kj ∈ Finset.range 4, ∑ j' : Fin 1024, f (krow kj j') :=
  calc ∑ j : Fin 4096, f j = ∑ x : Fin 4 × Fin 1024, f (rowEquiv x) := (Equiv.sum_comp rowEquiv f).symm
    _ = ∑ kj : Fin 4, ∑ j' : Fin 1024, f (krow kj.val j') := Fintype.sum_prod_type' (fun (kj : Fin 4) (j' : Fin 1024) => f (krow kj.val j'))
    _ = ∑ kj ∈ Finset.range 4, ∑ j' : Fin 1024, f (krow kj j') := Fin.sum_univ_eq_sum_range (fun kj => ∑ j' : Fin 1024, f (krow kj j')) 4

section Final
variable (V : (c : Dev nD) → (b : Ref sig .tc) → Buf (Elt Ideal) ((c : Thread nD τ).loc b))

/-- The four shares of a result row are the specification's attention at it. -/
theorem shares_eq (c : Dev nD) (b : Fin 4) (l : Fin 4096) (d : Fin 64) :
    ∑ kj ∈ Finset.range 4, blockTerm V c b l kj d
      = Cert.Spec.attnOf (V c main_v8) (V c main_v9) (V c main_v10) (ix3 b l d) := by
  unfold Cert.Spec.attnOf Cert.Spec.attnAt Cert.Spec.simAt blockTerm
  exact (sum_rows fun j => ((∑ e : Fin 64, qarr V c (ix3 b l e) * karr V c (ix3 b j e)) * Cert.Spec.scale) * varr V c (ix3 b j d)).symm

/-- What a writing point writes back is its block of the specification's attention of the three arrays. -/
theorem flushed_eq (c : Dev nD) (t : Fin cfg1.N) (hf : (cfg1.win 3).flush t = true) :
    (dat1 V c).flushed 3 t = ((cfg1.win 3).blk t).view.read (Elt Ideal) (Cert.Spec.attnOf (V c main_v8) (V c main_v9) (V c main_v10)) := by
  have h3 : t.val % 4 = 3 := (flush1_3 t).mp hf
  obtain ⟨e0, e1, e2⟩ := idx_o t
  show (cfg1.win 3).cut (grid1.coords t) ((dat1 V c).after 3 t) = _
  rw [after1_3]
  funext y
  have hy0 : (y 0).val = 0 := by have h : (y 0).val < 1 := (y 0).isLt; omega
  have hx : (cfg1.win 3).xinj (grid1.coords t) y = ix3 (0 : Fin 1) (⟨(y 1).val, (y 1).isLt⟩ : Fin 1024) (⟨(y 2).val, (y 2).isLt⟩ : Fin 64) :=
    funext fun a => Fin.ext (by match a with | ⟨0, _⟩ => exact hy0 | ⟨1, _⟩ => rfl | ⟨2, _⟩ => rfl)
  show (outsAt1 V c t.val t.isLt).1 ((cfg1.win 3).xinj (grid1.coords t) y) = _
  rw [hx, out_eq V c _ _ t.val t.isLt h3, shares_eq, View.read_apply]
  show Cert.Spec.attnOf (V c main_v8) (V c main_v9) (V c main_v10) _ = Cert.Spec.attnOf (V c main_v8) (V c main_v9) (V c main_v10) _
  refine congrArg (Cert.Spec.attnOf (V c main_v8) (V c main_v9) (V c main_v10)) (funext fun a => Fin.ext ?_)
  match a with
  | ⟨0, _⟩ => show t.val / 16 % 4 = win1_3.index t (0 : Fin 3) * 1 + 1 * (y 0).val; rw [e0, hy0]; omega
  | ⟨1, _⟩ => show t.val / 4 % 4 * 1024 + (y 1).val = win1_3.index t (1 : Fin 3) * 1024 + 1 * (y 1).val; rw [e1]; omega
  | ⟨2, _⟩ => show (y 2).val = win1_3.index t (2 : Fin 3) * 64 + 1 * (y 2).val; rw [e2]; omega

/-- An index of the array is in point `t`'s block iff each coordinate is in the block's range on its axis. -/
theorem mem_blk (t : Fin cfg1.N) (i : S4x4096x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v11).slice (win1_3.rect t)).set ↔ _
  rw [View.set_slice_whole, Rect.mem_set_unit]
  exact Iff.rfl

/-- Row `l` of batch `b` is written by the last point of its query block: position 16 b + 4 (l / 1024) + 3. -/
theorem cover (i : S4x4096x64.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 64 := (i 2).isLt
  have hN : cfg1.N = 64 := N_1
  let t : Fin cfg1.N := ⟨16 * (i 0).val + 4 * ((i 1).val / 1024) + 3, by rw [hN]; omega⟩
  have ht : t.val = 16 * (i 0).val + 4 * ((i 1).val / 1024) + 3 := rfl
  obtain ⟨e0, e1, e2⟩ := idx_o t
  refine ⟨t, (flush1_3 t).mpr (by rw [ht]; omega), ?_⟩
  rw [mem_blk]
  intro a
  match a with
  | ⟨0, _⟩ => show win1_3.index t (0 : Fin 3) * 1 ≤ (i 0).val ∧ (i 0).val < win1_3.index t (0 : Fin 3) * 1 + 1; rw [e0, ht]; omega
  | ⟨1, _⟩ => show win1_3.index t (1 : Fin 3) * 1024 ≤ (i 1).val ∧ (i 1).val < win1_3.index t (1 : Fin 3) * 1024 + 1024; rw [e1, ht]; omega
  | ⟨2, _⟩ => show win1_3.index t (2 : Fin 3) * 64 ≤ (i 2).val ∧ (i 2).val < win1_3.index t (2 : Fin 3) * 64 + 64; rw [e2]; omega

/-- The attention kernel's result array, for any entry contents: the specification's linear attention of the query, key
    and value arrays it finds. -/
theorem attn_arr (c : Dev nD) : (dat1 (F := Ideal) V c).arrAt 3 cfg1.N = Cert.Spec.attnOf (V c main_v8) (V c main_v9) (V c main_v10) :=
  (dat1 (F := Ideal) V c).arrAt_eq_of_cover 3 (Cert.Spec.attnOf (V c main_v8) (V c main_v9) (V c main_v10)) (fun t hf => flushed_eq V c t hf) cover

end Final

end Cert.KernelIdeal.Val

end
-- ==== Proof.Glue.lean ====
import proofs.«119097_j24275155157741_1_alg».proof.Proof.Ideal.Run
import proofs.«119097_j24275155157741_1_alg».proof.Proof.ProjValue
import proofs.«119097_j24275155157741_1_alg».proof.Proof.AttnValue
import proofs.«119097_j24275155157741_1_alg».proof.Proof.Spec
import Idealize.ShloMosaic.Lib.StableHlo.Run
import Idealize.ShloMosaic.Lib.Pipeline.Value
import Idealize.ShloMosaic.Lib.ValueIdx

/-!
  From the two regions' results to the whole program's: what the host operations between the items do, read at an index.
  x is flattened to 16384 rows (row b · 4096 + t is row (b, t)); each weight matrix is transposed (its change of float
  format is the identity on the extended reals); each projection comes back reshaped to [4, 4096, 64]. So the attention
  region's three operands are, coordinate by coordinate, the specification's three projections, and its result is `G`.
-/

set_option maxRecDepth 16384
noncomputable section
namespace Cert.KernelIdeal.Val
open Idealize.ShloMosaic Idealize.ShloMosaic.TcCoe Idealize.ShloMosaic.ValueIdx
open Idealize.SL.Sem
open Cert.KernelIdeal Cert.KernelIdeal.Gen Cert.KernelIdeal.Hand

/-- Row `b * 4096 + t` of the flattened `x` is row `(b, t)` of `x`. -/
theorem rows_at (x : S4x4096x768.Idx → EReal) (b : Fin 4) (t : Fin 4096) (k : Fin 768) (h : b.val * 4096 + t.val < 16384) :
    shapeCast S16384x768 x shapeCasts_S4x4096x768_S16384x768 (ix2 ⟨b.val * 4096 + t.val, h⟩ k) = x (ix3 b t k) :=
  shapeCast_apply x shapeCasts_S4x4096x768_S16384x768 _ (ix3 b t k) (by
    rw [Shape.rowMajor_val_two, Shape.rowMajor_val_three]; rfl)

/-- The transposed weight matrix (its change of float format is the identity on extended reals) at `(k, d)` is the weight at `(d, k)`. -/
theorem weightT_at (w : S64x768.Idx → EReal) (k : Fin 768) (d : Fin 64) :
    truncf (F := Ideal) .bf16 (transpose S768x64 [1, 0] w transposes_S64x768_S768x64_1_0) bitsLt_bf16_f32 (ix2 k d) = w (ix2 d k) :=
  transpose_apply [1, 0] w transposes_S64x768_S768x64_1_0 (ix2 k d) (ix2 d k) (fun a => by
    match a with
    | ⟨0, _⟩ => rfl
    | ⟨1, _⟩ => rfl)

/-- The first region's result, reshaped to [4, 4096, 64], at `(b, t, d)`: the projection of row `(b, t)` of `x` on row `d` of the weights. -/
theorem reshaped_proj_at (x : S4x4096x768.Idx → EReal) (w : S64x768.Idx → EReal) (b : Fin 4) (t : Fin 4096) (d : Fin 64) :
    shapeCast S4x4096x64 (Cert.Spec.rowsProj (shapeCast S16384x768 x shapeCasts_S4x4096x768_S16384x768)
        (truncf (F := Ideal) .bf16 (transpose S768x64 [1, 0] w transposes_S64x768_S768x64_1_0) bitsLt_bf16_f32)) shapeCasts_S16384x64_S4x4096x64 (ix3 b t d)
      = Cert.Spec.projAt x w b t d := by
  have h : b.val * 4096 + t.val < 16384 := by omega
  rw [shapeCast_apply _ shapeCasts_S16384x64_S4x4096x64 (ix3 b t d) (ix2 ⟨b.val * 4096 + t.val, h⟩ d) (by
    rw [Shape.rowMajor_val_two, Shape.rowMajor_val_three]; rfl)]
  unfold Cert.Spec.rowsProj Cert.Spec.projAt
  refine Finset.sum_congr rfl fun k _ => ?_
  exact congrArg₂ (· * ·) (rows_at x b t k h) (weightT_at w k d)

/-- Attention of three arrays that agree, coordinate by coordinate, with three functions of coordinates is attention of those. -/
theorem attnOf_congr (q k v : S4x4096x64.Idx → EReal) (fq fk fv : Fin 4 → Fin 4096 → Fin 64 → EReal)
    (hq : ∀ b t d, q (ix3 b t d) = fq b t d) (hk : ∀ b t d, k (ix3 b t d) = fk b t d) (hv : ∀ b t d, v (ix3 b t d) = fv b t d)
    (i : S4x4096x64.Idx) :
    Cert.Spec.attnOf q k v i = Cert.Spec.attnAt fq fk fv ⟨(i 0).val, (i 0).isLt⟩ ⟨(i 1).val, (i 1).isLt⟩ ⟨(i 2).val, (i 2).isLt⟩ := by
  have e1 : (fun b t d => q (ix3 b t d)) = fq := funext fun b => funext fun t => funext fun d => hq b t d
  have e2 : (fun b t d => k (ix3 b t d)) = fk := funext fun b => funext fun t => funext fun d => hk b t d
  have e3 : (fun b t d => v (ix3 b t d)) = fv := funext fun b => funext fun t => funext fun d => hv b t d
  unfold Cert.Spec.attnOf
  rw [e1, e2, e3]

variable (m : (ℓ : Loc nD τ sig) → Buf (Elt Ideal) ℓ) (ρ : Dev nD → PrngReg)

/-! ## What the host stretches hand the regions -/

/-- The projection region finds `x` flattened to rows, -/
theorem entry_rows (c : Dev nD) : (V1 m ρ c main_v6 : S16384x768.Idx → EReal)
    = shapeCast S16384x768 (m ((c : Thread nD τ).loc main_arg0)) shapeCasts_S4x4096x768_S16384x768 := by
  show StableHlo.after hostOps0 (W0 m ρ c) (Proc.devRef .tc main_v6) = _
  after_results
  rfl
/-- and each weight matrix transposed. -/
theorem entry_wq (c : Dev nD) : (V1 m ρ c main_v1 : S768x64.Idx → EReal)
    = truncf (F := Ideal) .bf16 (transpose S768x64 [1, 0] (m ((c : Thread nD τ).loc main_arg1)) transposes_S64x768_S768x64_1_0) bitsLt_bf16_f32 := by
  show StableHlo.after hostOps0 (W0 m ρ c) (Proc.devRef .tc main_v1) = _
  after_results
theorem entry_wk (c : Dev nD) : (V1 m ρ c main_v3 : S768x64.Idx → EReal)
    = truncf (F := Ideal) .bf16 (transpose S768x64 [1, 0] (m ((c : Thread nD τ).loc main_arg2)) transposes_S64x768_S768x64_1_0) bitsLt_bf16_f32 := by
  show StableHlo.after hostOps0 (W0 m ρ c) (Proc.devRef .tc main_v3) = _
  after_results
theorem entry_wv (c : Dev nD) : (V1 m ρ c main_v5 : S768x64.Idx → EReal)
    = truncf (F := Ideal) .bf16 (transpose S768x64 [1, 0] (m ((c : Thread nD τ).loc main_arg3)) transposes_S64x768_S768x64_1_0) bitsLt_bf16_f32 := by
  show StableHlo.after hostOps0 (W0 m ρ c) (Proc.devRef .tc main_v5) = _
  after_results

/-- The attention region finds each projection reshaped to [4, 4096, 64]. -/
theorem entry_q (c : Dev nD) : (V3 m ρ c main_v8 : S4x4096x64.Idx → EReal)
    = shapeCast S4x4096x64 (W2 m ρ c (Proc.devRef .tc main_v7_0)) shapeCasts_S16384x64_S4x4096x64 := by
  show StableHlo.after hostOps1 (W2 m ρ c) (Proc.devRef .tc main_v8) = _
  after_results
  rfl
theorem entry_k (c : Dev nD) : (V3 m ρ c main_v9 : S4x4096x64.Idx → EReal)
    = shapeCast S4x4096x64 (W2 m ρ c (Proc.devRef .tc main_v7_1)) shapeCasts_S16384x64_S4x4096x64 := by
  show StableHlo.after hostOps1 (W2 m ρ c) (Proc.devRef .tc main_v9) = _
  after_results
  rfl
theorem entry_v (c : Dev nD) : (V3 m ρ c main_v10 : S4x4096x64.Idx → EReal)
    = shapeCast S4x4096x64 (W2 m ρ c (Proc.devRef .tc main_v7_2)) shapeCasts_S16384x64_S4x4096x64 := by
  show StableHlo.after hostOps1 (W2 m ρ c) (Proc.devRef .tc main_v10) = _
  after_results
  rfl

/-! ## The result array -/

/-- The kernel program's result array ends holding the specification function of the four argument arrays. -/
theorem kernel_result (c : Dev nD) : (W4 m ρ c (Proc.devRef .tc main_v11) : S4x4096x64.Idx → EReal)
    = Cert.Spec.G (m ((c : Thread nD τ).loc main_arg0)) (m ((c : Thread nD τ).loc main_arg1)) (m ((c : Thread nD τ).loc main_arg2)) (m ((c : Thread nD τ).loc main_arg3)) := by
  have hq : (V3 m ρ c main_v8 : S4x4096x64.Idx → EReal) = shapeCast S4x4096x64 (Cert.Spec.rowsProj (shapeCast S16384x768 (m ((c : Thread nD τ).loc main_arg0)) shapeCasts_S4x4096x768_S16384x768)
      (truncf (F := Ideal) .bf16 (transpose S768x64 [1, 0] (m ((c : Thread nD τ).loc main_arg1)) transposes_S64x768_S768x64_1_0) bitsLt_bf16_f32)) shapeCasts_S16384x64_S4x4096x64 := by
    rw [entry_q, show W2 m ρ c (Proc.devRef .tc main_v7_0) = _ from W2_arr m ρ c 4, proj_arr4, entry_rows, entry_wq]
  have hk : (V3 m ρ c main_v9 : S4x4096x64.Idx → EReal) = shapeCast S4x4096x64 (Cert.Spec.rowsProj (shapeCast S16384x768 (m ((c : Thread nD τ).loc main_arg0)) shapeCasts_S4x4096x768_S16384x768)
      (truncf (F := Ideal) .bf16 (transpose S768x64 [1, 0] (m ((c : Thread nD τ).loc main_arg2)) transposes_S64x768_S768x64_1_0) bitsLt_bf16_f32)) shapeCasts_S16384x64_S4x4096x64 := by
    rw [entry_k, show W2 m ρ c (Proc.devRef .tc main_v7_1) = _ from W2_arr m ρ c 5, proj_arr5, entry_rows, entry_wk]
  have hv : (V3 m ρ c main_v10 : S4x4096x64.Idx → EReal) = shapeCast S4x4096x64 (Cert.Spec.rowsProj (shapeCast S16384x768 (m ((c : Thread nD τ).loc main_arg0)) shapeCasts_S4x4096x768_S16384x768)
      (truncf (F := Ideal) .bf16 (transpose S768x64 [1, 0] (m ((c : Thread nD τ).loc main_arg3)) transposes_S64x768_S768x64_1_0) bitsLt_bf16_f32)) shapeCasts_S16384x64_S4x4096x64 := by
    rw [entry_v, show W2 m ρ c (Proc.devRef .tc main_v7_2) = _ from W2_arr m ρ c 6, proj_arr6, entry_rows, entry_wv]
  rw [show W4 m ρ c (Proc.devRef .tc main_v11) = _ from result_at m ρ c, attn_arr, hq, hk, hv]
  funext i
  exact attnOf_congr _ _ _ _ _ _ (fun b t d => reshaped_proj_at _ _ b t d) (fun b t d => reshaped_proj_at _ _ b t d)
    (fun b t d => reshaped_proj_at _ _ b t d) i

end Cert.KernelIdeal.Val

end
-- ==== Proof.RefValue.lean ====
import proofs.«119097_j24275155157741_1_alg».proof.Proof.Gen.ReferenceIdeal.Read
import proofs.«119097_j24275155157741_1_alg».proof.Proof.Spec
import Idealize.ShloMosaic.Lib.ValueIdx
import Idealize.ShloMosaic.PureOps.Ideal.Laws

/-
  The reference program, read at the extended reals, is the specification function.
  Each of its stages is read at an index: the three projections are sums over the 768 features, the logits a sum over
  the 64 head coordinates multiplied on the right by the literal scale, the result a sum over the 4096 key rows. Written
  at coordinates these are the specification's own sums, term for term and in the same order of multiplication, so the
  only work is to say that each stage's index functions are the coordinate triples and pairs the specification reads.
-/

noncomputable section

namespace Cert.ReferenceIdeal.RefValue

open Cert.ReferenceIdeal Cert.ReferenceIdeal.Read Idealize.ShloMosaic Idealize.ShloMosaic.ValueIdx

/-! ## The index functions of the three projections, at coordinates -/

/-- The query projection reads the input at row `(b, t)`, feature `c`. -/
theorem lidx_query (j : S4x4096x64.Idx) (c : Fin 768) :
    lidx_main_v0 j c = ix3 (⟨(j 0).val, (j 0).isLt⟩ : Fin 4) (⟨(j 1).val, (j 1).isLt⟩ : Fin 4096) c :=
  funext fun a => Fin.ext (by match a with | ⟨0, _⟩ => rfl | ⟨1, _⟩ => rfl | ⟨2, _⟩ => rfl)

/-- The query projection reads its weight at row `d`, feature `c`. -/
theorem ridx_query (j : S4x4096x64.Idx) (c : Fin 768) :
    ridx_main_v0 j c = ix2 (⟨(j 2).val, (j 2).isLt⟩ : Fin 64) c :=
  funext fun a => Fin.ext (by match a with | ⟨0, _⟩ => rfl | ⟨1, _⟩ => rfl)

/-- The key projection reads the input at row `(b, t)`, feature `c`. -/
theorem lidx_key (j : S4x4096x64.Idx) (c : Fin 768) :
    lidx_main_v1 j c = ix3 (⟨(j 0).val, (j 0).isLt⟩ : Fin 4) (⟨(j 1).val, (j 1).isLt⟩ : Fin 4096) c :=
  funext fun a => Fin.ext (by match a with | ⟨0, _⟩ => rfl | ⟨1, _⟩ => rfl | ⟨2, _⟩ => rfl)

/-- The key projection reads its weight at row `d`, feature `c`. -/
theorem ridx_key (j : S4x4096x64.Idx) (c : Fin 768) :
    ridx_main_v1 j c = ix2 (⟨(j 2).val, (j 2).isLt⟩ : Fin 64) c :=
  funext fun a => Fin.ext (by match a with | ⟨0, _⟩ => rfl | ⟨1, _⟩ => rfl)

/-- The value projection reads the input at row `(b, t)`, feature `c`. -/
theorem lidx_value (j : S4x4096x64.Idx) (c : Fin 768) :
    lidx_main_v2 j c = ix3 (⟨(j 0).val, (j 0).isLt⟩ : Fin 4) (⟨(j 1).val, (j 1).isLt⟩ : Fin 4096) c :=
  funext fun a => Fin.ext (by match a with | ⟨0, _⟩ => rfl | ⟨1, _⟩ => rfl | ⟨2, _⟩ => rfl)

/-- The value projection reads its weight at row `d`, feature `c`. -/
theorem ridx_value (j : S4x4096x64.Idx) (c : Fin 768) :
    ridx_main_v2 j c = ix2 (⟨(j 2).val, (j 2).isLt⟩ : Fin 64) c :=
  funext fun a => Fin.ext (by match a with | ⟨0, _⟩ => rfl | ⟨1, _⟩ => rfl)

/-! ## The three projections are the specification's projection -/

/-- The query stage at an index is the specification's projection of the input by the first weight, at the index's coordinates. -/
theorem query_at (x0 : (⟨S4x4096x768, .f32⟩ : BufTy).Contents (Elt Ideal)) (x1 : (⟨S64x768, .f32⟩ : BufTy).Contents (Elt Ideal))
    (j : S4x4096x64.Idx) :
    val_main_v0 (F := Ideal) x0 x1 j
      = Cert.Spec.projAt x0 x1 ⟨(j 0).val, (j 0).isLt⟩ ⟨(j 1).val, (j 1).isLt⟩ ⟨(j 2).val, (j 2).isLt⟩ := by
  rw [val_main_v0_apply]
  unfold Cert.Spec.projAt
  refine Finset.sum_congr rfl fun c _ => ?_
  rw [lidx_query, ridx_query]

/-- The key stage at an index is the specification's projection of the input by the second weight. -/
theorem key_at (x0 : (⟨S4x4096x768, .f32⟩ : BufTy).Contents (Elt Ideal)) (x2 : (⟨S64x768, .f32⟩ : BufTy).Contents (Elt Ideal))
    (j : S4x4096x64.Idx) :
    val_main_v1 (F := Ideal) x0 x2 j
      = Cert.Spec.projAt x0 x2 ⟨(j 0).val, (j 0).isLt⟩ ⟨(j 1).val, (j 1).isLt⟩ ⟨(j 2).val, (j 2).isLt⟩ := by
  rw [val_main_v1_apply]
  unfold Cert.Spec.projAt
  refine Finset.sum_congr rfl fun c _ => ?_
  rw [lidx_key, ridx_key]

/-- The value stage at an index is the specification's projection of the input by the third weight. -/
theorem value_at (x0 : (⟨S4x4096x768, .f32⟩ : BufTy).Contents (Elt Ideal)) (x3 : (⟨S64x768, .f32⟩ : BufTy).Contents (Elt Ideal))
    (j : S4x4096x64.Idx) :
    val_main_v2 (F := Ideal) x0 x3 j
      = Cert.Spec.projAt x0 x3 ⟨(j 0).val, (j 0).isLt⟩ ⟨(j 1).val, (j 1).isLt⟩ ⟨(j 2).val, (j 2).isLt⟩ := by
  rw [val_main_v2_apply]
  unfold Cert.Spec.projAt
  refine Finset.sum_congr rfl fun c _ => ?_
  rw [lidx_value, ridx_value]

/-! ## The scaled logits -/

/-- The scaled-logit stage at an index `(b, l, j)`: the query row `l` against the key row `j`, summed over the head
    coordinates, times the literal scale on the right. -/
theorem logits_at (x0 : (⟨S4x4096x768, .f32⟩ : BufTy).Contents (Elt Ideal)) (x1 x2 : (⟨S64x768, .f32⟩ : BufTy).Contents (Elt Ideal))
    (m : S4x4096x4096.Idx) :
    val_main_v5 (F := Ideal) x0 x1 x2 m
      = Cert.Spec.simAt (Cert.Spec.projAt x0 x1) (Cert.Spec.projAt x0 x2)
          ⟨(m 0).val, (m 0).isLt⟩ ⟨(m 1).val, (m 1).isLt⟩ ⟨(m 2).val, (m 2).isLt⟩ := by
  rw [val_main_v5_apply, val_main_v3_apply, val_main_v4_apply, val_main_cst_apply, Ideal.mulf_def]
  unfold Cert.Spec.simAt Cert.Spec.scale
  congr 1
  refine Finset.sum_congr rfl fun d _ => ?_
  rw [query_at, key_at]

/-! ## The whole reference -/

/-- The reference program's result at the extended reals is the specification function of its four arguments. -/
theorem ref_is_G (x0 : (⟨Cert.ReferenceIdeal.S4x4096x768, .f32⟩ : BufTy).Contents (Elt Ideal))
    (x1 x2 x3 : (⟨Cert.ReferenceIdeal.S64x768, .f32⟩ : BufTy).Contents (Elt Ideal)) :
    Cert.ReferenceIdeal.Read.val_main_v6 (F := Ideal) x0 x1 x2 x3 = Cert.Spec.G x0 x1 x2 x3 := by
  funext i
  rw [val_main_v6_apply]
  unfold Cert.Spec.G Cert.Spec.attnAt
  refine Finset.sum_congr rfl fun j _ => ?_
  rw [logits_at, value_at]

end Cert.ReferenceIdeal.RefValue

end
-- ==== Proof.lean ====
/-
  The certificate of the projection-and-linear-attention kernel against its jnp reference.

  Both programs compute, over the extended reals, out[b, l, d] = Σ_j ((Σ_e q[b,l,e] · k[b,j,e]) · σ) · v[b,j,d] with
  q, k, v the three projections of x and σ the value of the f32 word 0x3E000000 (proof/Proof/Spec.lean, `G`).
  The kernel program is two pipelined regions among host reshapes and transposes: the first projects 1024 rows at a
  time; the second, for each block of 1024 query rows, adds the contribution of one block of 1024 key/value rows per grid
  point into an accumulator it carries across four points, and writes the block out after the fourth. Summing the four
  partial sums from zero is the sum over all 4096 key rows, addition on the extended reals being commutative and
  associative; no other law is needed, so the precondition is never opened.

  The frames of the two kernel programs are one text, generic in the float instance (proof/Proof/Ideal and proof/Proof/Bits):
  each region's body run symbolically, case by case of its two conditionals, the accumulator's content carried in the
  region's invariant, and @main's run assembled from the two regions and the host stretches between them, with every
  unscoped buffer's final content named. The value of the result array is read off that run (proof/Proof/ProjValue.lean,
  AttnValue.lean, Glue.lean); the reference's value is its own run read operation by operation (proof/Proof/RefValue.lean).
  The idealization rewrote nothing, so `preserves` is trivial.
-/
import proofs.«119097_j24275155157741_1_alg».proof.Defs
import proofs.«119097_j24275155157741_1_alg».proof.Proof.Gen.Kernel
import proofs.«119097_j24275155157741_1_alg».proof.Proof.Gen.KernelIdeal
import proofs.«119097_j24275155157741_1_alg».proof.Proof.Gen.ReferenceIdeal
import proofs.«119097_j24275155157741_1_alg».proof.Proof.Gen.ReferenceIdeal.Run
import proofs.«119097_j24275155157741_1_alg».proof.Proof.Gen.ReferenceIdeal.Read
import proofs.«119097_j24275155157741_1_alg».proof.Proof.Gen.Pre_finite_inputs
import proofs.«119097_j24275155157741_1_alg».proof.Proof.Bits.Run
import proofs.«119097_j24275155157741_1_alg».proof.Proof.Ideal.Run
import proofs.«119097_j24275155157741_1_alg».proof.Proof.Glue
import proofs.«119097_j24275155157741_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel (hKernel := Cert.Kernel.Gen.facts) (hPre_finite_inputs := Cert.Pre_finite_inputs.Gen.facts) :=
  fun m ρ _ => Cert.Kernel.Hand.frame (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the four arguments both idealized programs end with the result array at `G` of them. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v11 (by decide))).trans (Cert.KernelIdeal.Val.kernel_result m ρ c),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.ref_is_G, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
